-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S1x524288x64 : Shape := ⟨3, ![1, 524288, 64]⟩
abbrev S256x64 : Shape := ⟨2, ![256, 64]⟩
abbrev S256 : Shape := ⟨1, ![256]⟩
abbrev S64x128 : Shape := ⟨2, ![64, 128]⟩
abbrev S64 : Shape := ⟨1, ![64]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S1x524288x64 : S_.BroadcastsInDim S1x524288x64 (![] : Fin 0 → Fin S1x524288x64.rank)
  reducesTo_S1x524288x64_S_d0_1_2 : S1x524288x64.ReducesTo [0, 1, 2] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x128 .f32) (main_arg8 : FVec F S64 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S256x64 .f32) (main_arg5 : FVec F S256 .f32) (main_arg6 : FVec F S256 .f32) (main_arg7 : FVec F S64x128 .f32) (main_arg8 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S524288x64 .f32) (main_arg1 : FVec F S1x524288x64 .f32) (main_arg2 : FVec F S1x524288x64 .f32) (main_arg3 : FVec F S256x64 .f32) (main_arg4 : FVec F S256x64 .f32) (main_arg5 : FVec F S256 .f32) (main_arg6 : FVec F S256 .f32) (main_arg7 : FVec F S64x128 .f32) (main_arg8 : FVec F S64 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S1x524288x64 .f32 := Host.absf main_arg1
  let main_cst_0 : FVec F S_ .f32 := constant S_ .f32 0x7F800000#32
  let main_v5 : FVec F S1x524288x64 .f32 := broadcastInDim S1x524288x64 ![] bcast_S_S1x524288x64 main_cst_0
  let main_v6 : IVec S1x524288x64 1 := cmpf .olt main_v4 main_v5
  let main_c_1 : IVec S_ 1 := constantI S_ 1 1#1
  let main_v7 : IVec S_ 1 := (fun x v => Host.reduce IntOp.andi x v reducesTo_S1x524288x64_S_d0_1_2 h_S_) main_v6 main_c_1
  let main_v8 : IVec S_ 1 := andi main_v3 main_v7
  let main_v9 : FVec F S1x524288x64 .f32 := Host.absf main_arg2
  let main_cst_2 : FVec F S_ .f32 := constant S_ .f32 0x7F800000#32
  let main_v10 : FVec F S1x524288x64 .f32 := broadcastInDim S1x524288x64 ![] bcast_S_S1x524288x64 main_cst_2
  let main_v11 : IVec S1x524288x64 1 := cmpf .olt main_v9 main_v10
  let main_c_3 : IVec S_ 1 := constantI S_ 1 1#1
  let main_v12 : IVec S_ 1 := (fun x v => Host.reduce IntOp.andi x v reducesTo_S1x524288x64_S_d0_1_2 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_arg7 main_arg8 main_v13 main_v16
-- ==== Kernel.lean ====
abbrev S524288x64 : Shape := ⟨2, ![524288, 64]⟩
abbrev S1x524288x64 : Shape := ⟨3, ![1, 524288, 64]⟩
abbrev S256x64 : Shape := ⟨2, ![256, 64]⟩
abbrev S256 : Shape := ⟨1, ![256]⟩
abbrev S64x128 : Shape := ⟨2, ![64, 128]⟩
abbrev S64 : Shape := ⟨1, ![64]⟩
abbrev S64x64 : Shape := ⟨2, ![64, 64]⟩
abbrev S64x256 : Shape := ⟨2, ![64, 256]⟩
abbrev S1x256 : Shape := ⟨2, ![1, 256]⟩
abbrev S1x64 : Shape := ⟨2, ![1, 64]⟩
abbrev S2048x64 : Shape := ⟨2, ![2048, 64]⟩
abbrev S2048x256 : Shape := ⟨2, ![2048, 256]⟩
abbrev S2048 : Shape := ⟨1, ![2048]⟩
abbrev S2048x1 : Shape := ⟨2, ![2048, 1]⟩

abbrev nBuf : Space → Nat
  | .hbm => 29
  | .vmem => 18
  | .smem => 0
  | _ => 0

abbrev bufTy : (tb : Table) → Fin (tcTables nBuf tb) → BufTy
  | .hbm, ⟨0, _⟩ => ⟨S524288x64, .f32⟩
  | .hbm, ⟨1, _⟩ => ⟨S1x524288x64, .f32⟩
  | .hbm, ⟨2, _⟩ => ⟨S1x524288x64, .f32⟩
  | .hbm, ⟨3, _⟩ => ⟨S256x64, .f32⟩
  | .hbm, ⟨4, _⟩ => ⟨S256x64, .f32⟩
  | .hbm, ⟨5, _⟩ => ⟨S256, .f32⟩
  | .hbm, ⟨6, _⟩ => ⟨S256, .f32⟩
  | .hbm, ⟨7, _⟩ => ⟨S64x128, .f32⟩
  | .hbm, ⟨8, _⟩ => ⟨S64, .f32⟩
  | .hbm, ⟨9, _⟩ => ⟨S524288x64, .f32⟩
  | .hbm, ⟨10, _⟩ => ⟨S524288x64, .f32⟩
  | .hbm, ⟨11, _⟩ => ⟨S64x64, .f32⟩
  | .hbm, ⟨12, _⟩ => ⟨S64x64, .f32⟩
  | .hbm, ⟨13, _⟩ => ⟨S64x256, .f32⟩
  | .hbm, ⟨14, _⟩ => ⟨S64x256, .bf16⟩
  | .hbm, ⟨15, _⟩ => ⟨S64x256, .f32⟩
  | .hbm, ⟨16, _⟩ => ⟨S64x256, .bf16⟩
  | .hbm, ⟨17, _⟩ => ⟨S64x64, .f32⟩
  | .hbm, ⟨18, _⟩ => ⟨S64x64, .bf16⟩
  | .hbm, ⟨19, _⟩ => ⟨S64x64, .f32⟩
  | .hbm, ⟨20, _⟩ => ⟨S64x64, .bf16⟩
  | .hbm, ⟨21, _⟩ => ⟨S256, .f32⟩
  | .hbm, ⟨22, _⟩ => ⟨S1x256, .f32⟩
  | .hbm, ⟨23, _⟩ => ⟨S1x64, .f32⟩
  | .hbm, ⟨24, _⟩ => ⟨S524288x64, .f32⟩
  | .hbm, ⟨25, _⟩ => ⟨S524288x64, .f32⟩
  | .hbm, ⟨26, _⟩ => ⟨S524288x64, .f32⟩
  | .hbm, ⟨27, _⟩ => ⟨S1x524288x64, .f32⟩
  | .hbm, ⟨28, _⟩ => ⟨S1x524288x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S64x256, .bf16⟩
  | .local _ .vmem, ⟨7, _⟩ => ⟨S64x256, .bf16⟩
  | .local _ .vmem, ⟨8, _⟩ => ⟨S64x64, .bf16⟩
  | .local _ .vmem, ⟨9, _⟩ => ⟨S64x64, .bf16⟩
  | .local _ .vmem, ⟨10, _⟩ => ⟨S1x256, .f32⟩
  | .local _ .vmem, ⟨11, _⟩ => ⟨S1x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1x524288x64_S524288x64 : S1x524288x64.ShapeCasts S524288x64
  slices_S64x128_S64x64_0_0 : S64x128.Slices ![0, 0] S64x64
  slices_S64x128_S64x64_0_64 : S64x128.Slices ![0, 64] S64x64
  transposes_S256x64_S64x256_1_0 : S256x64.Transposes [1, 0] S64x256
  bitsLt_bf16_f32 : FTy.bits .bf16 < FTy.bits .f32
  transposes_S64x64_S64x64_1_0 : S64x64.Transposes [1, 0] S64x64
  shapeCasts_S256_S1x256 : S256.ShapeCasts S1x256
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x256_o0_0_S2048x64 : S2048x256.Slices ![0, 0] S2048x64
  slices_S2048x256_o0_64_S2048x64 : S2048x256.Slices ![0, 64] S2048x64
  slices_S2048x256_o0_128_S2048x64 : S2048x256.Slices ![0, 128] S2048x64
  slices_S2048x256_o0_192_S2048x64 : S2048x256.Slices ![0, 192] S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  bcast_S524288x64_S1x524288x64_1_2 : S524288x64.BroadcastsInDim S1x524288x64 (![1, 2] : Fin 2 → Fin S1x524288x64.rank)
  dot_S2048x64_S64x256_S2048x256_1_0_0_1_n_n_wf : DotDims.WF S2048x64 S64x256 S2048x256 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S524288x64.size a
  hwx0_0 : ∀ i : grid0.Coords, EltTy.bits .f32 = 32 ∨ (Rect.block (s := S524288x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S524288x64.size a
  hwx0_1 : ∀ i : grid0.Coords, EltTy.bits .f32 = 32 ∨ (Rect.block (s := S524288x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S524288x64.size a
  hwx0_2 : ∀ i : grid0.Coords, EltTy.bits .f32 = 32 ∨ (Rect.block (s := S524288x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .bf16 = 32 ∨ (Rect.block (s := S64x256) S64x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .bf16 = 32 ∨ (Rect.block (s := S64x256) S64x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x64.size a ≤ S524288x64.size a
  hwx0_9 : ∀ i : grid0.Coords, EltTy.bits .f32 = 32 ∨ (Rect.block (s := S524288x64) S2048x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x64.size a ≤ S524288x64.size a
  hwx0_10 : ∀ i : grid0.Coords, EltTy.bits .f32 = 32 ∨ (Rect.block (s := S524288x64) S2048x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x64.size a ≤ S524288x64.size a
  hwx0_11 : ∀ i : grid0.Coords, EltTy.bits .f32 = 32 ∨ (Rect.block (s := S524288x64) S2048x64.size (cc0_transform_11 i) (hinb0_11 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15_0) S2048x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15_1) S2048x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15_2) S2048x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288x64 : Shape := ⟨2, ![524288, 64]⟩
abbrev S1x524288x64 : Shape := ⟨3, ![1, 524288, 64]⟩
abbrev S256x64 : Shape := ⟨2, ![256, 64]⟩
abbrev S256 : Shape := ⟨1, ![256]⟩
abbrev S64x128 : Shape := ⟨2, ![64, 128]⟩
abbrev S64 : Shape := ⟨1, ![64]⟩
abbrev S524288x128 : Shape := ⟨2, ![524288, 128]⟩
abbrev S128x64 : Shape := ⟨2, ![128, 64]⟩
abbrev S1x64 : Shape := ⟨2, ![1, 64]⟩
abbrev S_ : Shape := ⟨0, ![]⟩
abbrev S524288 : Shape := ⟨1, ![524288]⟩
abbrev S524288x1 : Shape := ⟨2, ![524288, 1]⟩
abbrev S64x256 : Shape := ⟨2, ![64, 256]⟩
abbrev S524288x256 : Shape := ⟨2, ![524288, 256]⟩
abbrev S1x256 : Shape := ⟨2, ![1, 256]⟩

abbrev nBuf : Space → Nat
  | .hbm => 77
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S1x524288x64, .f32⟩
  | .hbm, ⟨2, _⟩ => ⟨S1x524288x64, .f32⟩
  | .hbm, ⟨3, _⟩ => ⟨S256x64, .f32⟩
  | .hbm, ⟨4, _⟩ => ⟨S256x64, .f32⟩
  | .hbm, ⟨5, _⟩ => ⟨S256, .f32⟩
  | .hbm, ⟨6, _⟩ => ⟨S256, .f32⟩
  | .hbm, ⟨7, _⟩ => ⟨S64x128, .f32⟩
  | .hbm, ⟨8, _⟩ => ⟨S64, .f32⟩
  | .hbm, ⟨9, _⟩ => ⟨S524288x64, .f32⟩
  | .hbm, ⟨10, _⟩ => ⟨S524288x64, .f32⟩
  | .hbm, ⟨11, _⟩ => ⟨S524288x128, .f32⟩
  | .hbm, ⟨12, _⟩ => ⟨S128x64, .f32⟩
  | .hbm, ⟨13, _⟩ => ⟨S524288x64, .f32⟩
  | .hbm, ⟨14, _⟩ => ⟨S1x64, .f32⟩
  | .hbm, ⟨15, _⟩ => ⟨S524288x64, .f32⟩
  | .hbm, ⟨16, _⟩ => ⟨S524288x64, .f32⟩
  | .hbm, ⟨17, _⟩ => ⟨S_, .f32⟩
  | .hbm, ⟨18, _⟩ => ⟨S524288, .f32⟩
  | .hbm, ⟨19, _⟩ => ⟨S_, .f32⟩
  | .hbm, ⟨20, _⟩ => ⟨S524288, .f32⟩
  | .hbm, ⟨21, _⟩ => ⟨S524288, .f32⟩
  | .hbm, ⟨22, _⟩ => ⟨S524288x1, .f32⟩
  | .hbm, ⟨23, _⟩ => ⟨S524288x64, .f32⟩
  | .hbm, ⟨24, _⟩ => ⟨S524288x64, .f32⟩
  | .hbm, ⟨25, _⟩ => ⟨S524288x64, .f32⟩
  | .hbm, ⟨26, _⟩ => ⟨S_, .f32⟩
  | .hbm, ⟨27, _⟩ => ⟨S524288, .f32⟩
  | .hbm, ⟨28, _⟩ => ⟨S524288x1, .f32⟩
  | .hbm, ⟨29, _⟩ => ⟨S524288x1, .f32⟩
  | .hbm, ⟨30, _⟩ => ⟨S524288x64, .f32⟩
  | .hbm, ⟨31, _⟩ => ⟨S524288x64, .f32⟩
  | .hbm, ⟨32, _⟩ => ⟨S64x256, .f32⟩
  | .hbm, ⟨33, _⟩ => ⟨S524288x256, .f32⟩
  | .hbm, ⟨34, _⟩ => ⟨S64x256, .f32⟩
  | .hbm, ⟨35, _⟩ => ⟨S524288x256, .f32⟩
  | .hbm, ⟨36, _⟩ => ⟨S524288x256, .f32⟩
  | .hbm, ⟨37, _⟩ => ⟨S256, .f32⟩
  | .hbm, ⟨38, _⟩ => ⟨S1x256, .f32⟩
  | .hbm, ⟨39, _⟩ => ⟨S524288x256, .f32⟩
  | .hbm, ⟨40, _⟩ => ⟨S524288x256, .f32⟩
  | .hbm, ⟨41, _⟩ => ⟨S524288x64, .f32⟩
  | .hbm, ⟨42, _⟩ => ⟨S524288x64, .f32⟩
  | .hbm, ⟨43, _⟩ => ⟨S524288x64, .f32⟩
  | .hbm, ⟨44, _⟩ => ⟨S524288x64, .f32⟩
  | .hbm, ⟨45, _⟩ => ⟨S524288x64, .f32⟩
  | .hbm, ⟨46, _⟩ => ⟨S524288x64, .f32⟩
  | .hbm, ⟨47, _⟩ => ⟨S_, .f32⟩
  | .hbm, ⟨48, _⟩ => ⟨S524288x64, .f32⟩
  | .hbm, ⟨49, _⟩ => ⟨S524288x64, .f32⟩
  | .hbm, ⟨50, _⟩ => ⟨S_, .f32⟩
  | .hbm, ⟨51, _⟩ => ⟨S524288x64, .f32⟩
  | .hbm, ⟨52, _⟩ => ⟨S524288x64, .f32⟩
  | .hbm, ⟨53, _⟩ => ⟨S524288x64, .f32⟩
  | .hbm, ⟨54, _⟩ => ⟨S524288x64, .f32⟩
  | .hbm, ⟨55, _⟩ => ⟨S_, .f32⟩
  | .hbm, ⟨56, _⟩ => ⟨S524288x64, .f32⟩
  | .hbm, ⟨57, _⟩ => ⟨S524288x64, .f32⟩
  | .hbm, ⟨58, _⟩ => ⟨S_, .f32⟩
  | .hbm, ⟨59, _⟩ => ⟨S524288x64, .f32⟩
  | .hbm, ⟨60, _⟩ => ⟨S524288x64, .f32⟩
  | .hbm, ⟨61, _⟩ => ⟨S524288x64, .f32⟩
  | .hbm, ⟨62, _⟩ => ⟨S524288x64, .f32⟩
  | .hbm, ⟨63, _⟩ => ⟨S524288x64, .f32⟩
  | .hbm, ⟨64, _⟩ => ⟨S_, .f32⟩
  | .hbm, ⟨65, _⟩ => ⟨S524288x64, .f32⟩
  | .hbm, ⟨66, _⟩ => ⟨S524288x64, .f32⟩
  | .hbm, ⟨67, _⟩ => ⟨S_, .f32⟩
  | .hbm, ⟨68, _⟩ => ⟨S524288x64, .f32⟩
  | .hbm, ⟨69, _⟩ => ⟨S524288x64, .f32⟩
  | .hbm, ⟨70, _⟩ => ⟨S524288x64, .f32⟩
  | .hbm, ⟨71, _⟩ => ⟨S524288x64, .f32⟩
  | .hbm, ⟨72, _⟩ => ⟨S524288x64, .f32⟩
  | .hbm, ⟨73, _⟩ => ⟨S524288x64, .f32⟩
  | .hbm, ⟨74, _⟩ => ⟨S524288x64, .f32⟩
  | .hbm, ⟨75, _⟩ => ⟨S1x524288x64, .f32⟩
  | .hbm, ⟨76, _⟩ => ⟨S1x524288x64, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_v24 : Ref sig .tc := ⟨.hbm, 48, rfl⟩
abbrev main_v25 : Ref sig .tc := ⟨.hbm, 49, rfl⟩
abbrev main_cst_0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_1 : Ref sig .tc := ⟨.hbm, 55, rfl⟩
abbrev main_v30 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_3 : Ref sig .tc := ⟨.hbm, 64, rfl⟩
abbrev main_v37 : Ref sig .tc := ⟨.hbm, 65, rfl⟩
abbrev main_v38 : Ref sig .tc := ⟨.hbm, 66, rfl⟩
abbrev main_cst_4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩

abbrev nD : Nat := 1
abbrev τ : Topo := Topo.v7x

variable {F : FTy → Type} [FloatOps F]

class Facts₀ : Prop where
  shapeCasts_S1x524288x64_S524288x64 : S1x524288x64.ShapeCasts S524288x64
  concatenates_S524288x64_S524288x64_S524288x128_d1 : Shape.Concatenates [S524288x64, S524288x64] S524288x128 1
  transposes_S64x128_S128x64_1_0 : S64x128.Transposes [1, 0] S128x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  reducesTo_S524288x64_S524288_d1 : S524288x64.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  transposes_S256x64_S64x256_1_0 : S256x64.Transposes [1, 0] S64x256
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  slices_S524288x256_S524288x64_0_0 : S524288x256.Slices ![0, 0] S524288x64
  slices_S524288x256_S524288x64_0_64 : S524288x256.Slices ![0, 64] S524288x64
  slices_S524288x256_S524288x64_0_128 : S524288x256.Slices ![0, 128] S524288x64
  slices_S524288x256_S524288x64_0_192 : S524288x256.Slices ![0, 192] S524288x64
  bcast_S_S524288x64 : S_.BroadcastsInDim S524288x64 (![] : Fin 0 → Fin S524288x64.rank)
  bcast_S524288x64_S1x524288x64_1_2 : S524288x64.BroadcastsInDim S1x524288x64 (![1, 2] : Fin 2 → Fin S1x524288x64.rank)
  dot_S524288x128_S128x64_S524288x64_1_0_0_1_n_n_wf : DotDims.WF S524288x128 S128x64 S524288x64 [1] [0] [0] [1] [] []
  dot_S524288x64_S64x256_S524288x256_1_0_0_1_n_n_wf : DotDims.WF S524288x64 S64x256 S524288x256 [1] [0] [0] [1] [] []

variable [Facts₀]

def dot_S524288x128_S128x64_S524288x64_1_0_0_1_n_n : DotDims S524288x128 S128x64 S524288x64 where
  lhsContracting := [1]
  rhsContracting := [0]
  lhsNonContracting := [0]
  rhsNonContracting := [1]
  lhsBatch := []
  rhsBatch := []
  wf := dot_S524288x128_S128x64_S524288x64_1_0_0_1_n_n_wf
def dot_S524288x64_S64x256_S524288x256_1_0_0_1_n_n : DotDims S524288x64 S64x256 S524288x256 where
  lhsContracting := [1]
  rhsContracting := [0]
  lhsNonContracting := [0]
  rhsNonContracting := [1]
  lhsBatch := []
  rhsBatch := []
  wf := dot_S524288x64_S64x256_S524288x256_1_0_0_1_n_n_wf

class Facts : Prop extends Facts₀ where

variable [Facts]
-- ==== Proof.RowSpec.lean ====
/-
  One batch row of the fused LSTM step with its output head, over the extended reals.

  For a row `xr` of the input, `hr` of the hidden state and `cr` of the cell state:
  * the four gate pre-activations are the 256 numbers `xr · Wi j + hr · Wh j + bg j`, `bg` the sum of the two gate biases;
    entries 0..63 feed the input gate, 64..127 the forget gate, 128..191 the candidate, 192..255 the output gate;
  * the next cell state is `σ(f) · cr + σ(i) · tanh(g)`, the next hidden state `σ(o) · tanh(next cell)`,
    with `σ z = 1 / (1 + e^(-z))`;
  * the head's logits are `xr · Ux o + hr · Uh o + bo o`, where `Ux` and `Uh` are the two halves of the head's
    weight that multiply the input and the (previous) hidden state; the row's result is their log-softmax,
    `(z o - M) - log Σ e^(z o' - M)` with `M` the row's maximum (a fold of `max` from a starting value `ninf`).
  Nothing here depends on how the batch is tiled: both programs are reduced to these functions row by row.
-/
import Idealize.ShloMosaic.PureOps.Ideal
import Idealize.ShloMosaic.PureOps.Ideal.Laws

noncomputable section

namespace Cert.RowSpec

open Idealize.ShloMosaic

/-- Gate pre-activation `j` of a row: the two dot products with row `j` of the weights, plus the summed bias. -/
def gatePre (xr hr : Fin 64 → EReal) (Wi Wh : Fin 256 → Fin 64 → EReal) (bg : Fin 256 → EReal) (j : Fin 256) : EReal :=
  ((∑ k : Fin 64, xr k * Wi j k) + (∑ k : Fin 64, hr k * Wh j k)) + bg j

/-- Entry `q` of the gate that starts at column `o` of the 256 pre-activations. -/
abbrev gateCol (o : ℕ) (ho : o + 64 ≤ 256) (q : Fin 64) : Fin 256 := ⟨o + q.val, by have := q.isLt; omega⟩

/-- The next cell state of a row: forget gate times the old cell plus input gate times the candidate. -/
def cellNext (xr hr cr : Fin 64 → EReal) (Wi Wh : Fin 256 → Fin 64 → EReal) (bg : Fin 256 → EReal) (q : Fin 64) : EReal :=
  Ideal.logistic (gatePre xr hr Wi Wh bg (gateCol 64 (by decide) q)) * cr q
    + Ideal.logistic (gatePre xr hr Wi Wh bg (gateCol 0 (by decide) q)) * Ideal.tanh (gatePre xr hr Wi Wh bg (gateCol 128 (by decide) q))

/-- The next hidden state of a row: output gate times `tanh` of the next cell state. -/
def hiddenNext (xr hr cr : Fin 64 → EReal) (Wi Wh : Fin 256 → Fin 64 → EReal) (bg : Fin 256 → EReal) (q : Fin 64) : EReal :=
  Ideal.logistic (gatePre xr hr Wi Wh bg (gateCol 192 (by decide) q)) * Ideal.tanh (cellNext xr hr cr Wi Wh bg q)

/-- Logit `o` of the head on a row: the input's and the hidden state's dot products with their halves of the
    head's weight, plus the bias. -/
def headLogit (xr hr : Fin 64 → EReal) (Ux Uh : Fin 64 → Fin 64 → EReal) (bo : Fin 64 → EReal) (o : Fin 64) : EReal :=
  ((∑ k : Fin 64, xr k * Ux o k) + (∑ k : Fin 64, hr k * Uh o k)) + bo o

/-- The maximum of 64 numbers, folded from `ninf`. -/
def rowMax (ninf : EReal) (z : Fin 64 → EReal) : EReal := (Finset.univ : Finset (Fin 64)).fold max ninf z

/-- Log-softmax of 64 numbers at `o`, shifted by their maximum. -/
def logSoftmax (ninf : EReal) (z : Fin 64 → EReal) (o : Fin 64) : EReal :=
  (z o - rowMax ninf z) - Ideal.log (∑ o' : Fin 64, Ideal.exp (z o' - rowMax ninf z))

/-- Taking the maximum once more against the fold's own starting value changes nothing: the fold is at least
    its starting value. -/
theorem max_rowMax (ninf : EReal) (z : Fin 64 → EReal) : max ninf (rowMax ninf z) = rowMax ninf z :=
  max_eq_right ((Finset.le_fold_max ninf).mpr (Or.inl le_rfl))

/-- A sum over 128 terms is the sum of its first 64 and its last 64. -/
theorem sum_split128 (f : Fin 128 → EReal) :
    ∑ k : Fin 128, f k = (∑ k : Fin 64, f ⟨k.val, by have := k.isLt; omega⟩) + ∑ k : Fin 64, f ⟨64 + k.val, by have := k.isLt; omega⟩ := by
  exact Fin.sum_univ_add (a := 64) (b := 64) f

end Cert.RowSpec

end
-- ==== Proof.KernelRow.lean ====
/-
  The kernel's body, one batch row at a time, over the extended reals.

  The body works on a block of 2048 rows. Each of its three stored values is read here at row `p` of the block and
  column `q`, and shown to be the row functions of Proof/RowSpec.lean applied to row `p` of the loaded blocks:
  * the 2048 × 256 gate pre-activations are, at `(p, j)`, the two 64-term dot products of row `p` of the input and
    hidden blocks with column `j` of the (transposed) weights, plus the bias row at `j`;
  * the stored cell and hidden states are the LSTM update of those numbers with row `p` of the cell block;
  * the stored log-probabilities are the log-softmax along the row of the head's logits, whose row maximum and row
    sum are the block's lane reductions read at `p`.
  A change of float format is the identity here, and a shape cast between equal shapes is the identity.
-/
import proofs.«166299_j26852135535256_1_alg».proof.Proof.Gen.KernelIdeal.Skeleton
import proofs.«166299_j26852135535256_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.RowSpec

/-! ## The two block products at an index -/

theorem lhs_gate_0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem lhs_gate_1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
theorem rhs_gate_0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
theorem rhs_gate_1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

/-- A block product into the zero accumulator, at row `p` and column `j`: the sum over the 64 contracted entries. -/
theorem matmul_gate_apply (a : FVec Ideal S2048x64 .bf16) (b : FVec Ideal S64x256 .bf16) (p : Fin 2048) (j : Fin 256) :
    matmul dot_S2048x64_S64x256_S2048x256_1_0_0_1_n_n none a b (constant (F := Ideal) S2048x256 .f32 0x00000000#32) (ix2 p j)
      = ∑ k : Fin 64, a (ix2 p k) * b (ix2 k j) := by
  simp only [matmul]
  rw [Ideal.matmul_constant_zero_apply, ← Equiv.sum_comp (ValueIdx.contrEquiv1 dot_S2048x64_S64x256_S2048x256_1_0_0_1_n_n 64 rfl rfl).symm]
  refine Finset.sum_congr rfl fun k _ => ?_
  have hk := ValueIdx.contrEquiv1_symm_val dot_S2048x64_S64x256_S2048x256_1_0_0_1_n_n 64 rfl rfl k
  have el : dot_S2048x64_S64x256_S2048x256_1_0_0_1_n_n.lhsIdx (ix2 p j) ((ValueIdx.contrEquiv1 dot_S2048x64_S64x256_S2048x256_1_0_0_1_n_n 64 rfl rfl).symm k) = ix2 p k := funext fun a => Fin.ext (by
    match a with
    | ⟨0, _⟩ => exact lhs_gate_0 _ _
    | ⟨1, _⟩ => exact (lhs_gate_1 _ _).trans hk)
  have er : dot_S2048x64_S64x256_S2048x256_1_0_0_1_n_n.rhsIdx (ix2 p j) ((ValueIdx.contrEquiv1 dot_S2048x64_S64x256_S2048x256_1_0_0_1_n_n 64 rfl rfl).symm k) = ix2 k j := funext fun a => Fin.ext (by
    match a with
    | ⟨0, _⟩ => exact (rhs_gate_0 _ _).trans hk
    | ⟨1, _⟩ => exact rhs_gate_1 _ _)
  rw [el, er]

theorem lhs_head_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_head_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhs_head_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhs_head_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- A block product into the zero accumulator, at row `p` and column `j`: the sum over the 64 contracted entries. -/
theorem matmul_head_apply (a : FVec Ideal S2048x64 .bf16) (b : FVec Ideal S64x64 .bf16) (p : Fin 2048) (j : Fin 64) :
    matmul dot_S2048x64_S64x64_S2048x64_1_0_0_1_n_n none a b (constant (F := Ideal) S2048x64 .f32 0x00000000#32) (ix2 p j)
      = ∑ k : Fin 64, a (ix2 p k) * b (ix2 k j) := by
  simp only [matmul]
  rw [Ideal.matmul_constant_zero_apply, ← Equiv.sum_comp (ValueIdx.contrEquiv1 dot_S2048x64_S64x64_S2048x64_1_0_0_1_n_n 64 rfl rfl).symm]
  refine Finset.sum_congr rfl fun k _ => ?_
  have hk := ValueIdx.contrEquiv1_symm_val dot_S2048x64_S64x64_S2048x64_1_0_0_1_n_n 64 rfl rfl k
  have el : dot_S2048x64_S64x64_S2048x64_1_0_0_1_n_n.lhsIdx (ix2 p j) ((ValueIdx.contrEquiv1 dot_S2048x64_S64x64_S2048x64_1_0_0_1_n_n 64 rfl rfl).symm k) = ix2 p k := funext fun a => Fin.ext (by
    match a with
    | ⟨0, _⟩ => exact lhs_head_0 _ _
    | ⟨1, _⟩ => exact (lhs_head_1 _ _).trans hk)
  have er : dot_S2048x64_S64x64_S2048x64_1_0_0_1_n_n.rhsIdx (ix2 p j) ((ValueIdx.contrEquiv1 dot_S2048x64_S64x64_S2048x64_1_0_0_1_n_n 64 rfl rfl).symm k) = ix2 k j := funext fun a => Fin.ext (by
    match a with
    | ⟨0, _⟩ => exact (rhs_head_0 _ _).trans hk
    | ⟨1, _⟩ => exact rhs_head_1 _ _)
  rw [el, er]

/-! ## A column of per-row numbers: cast to one column, then spread along the row -/

/-- A vector of `a` numbers cast to an `a × 1` column, at row `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over `b` columns, at `(p, c)`: the column's entry at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Per-row numbers spread along their rows. -/
theorem column_apply (r : FVec Ideal S2048 .f32) (p : Fin 2048) (o : Fin 64) :
    broadcastTo S2048x64 (shapeCast S2048x1 r shapeCasts_S2048_S2048x1) broadcasts_S2048x1_S2048x64 (ix2 p o) = r (ix1 p) := by
  rw [broadcastTo_a1_ab_apply, shapeCast_a_a1_apply]

/-- The logarithm of per-row numbers spread along their rows. -/
theorem column_log_apply (r : FVec Ideal S2048 .f32) (p : Fin 2048) (o : Fin 64) :
    broadcastTo S2048x64 (log (shapeCast S2048x1 r shapeCasts_S2048_S2048x1)) broadcasts_S2048x1_S2048x64 (ix2 p o) = Ideal.log (r (ix1 p)) := by
  rw [broadcastTo_a1_ab_apply]
  show Ideal.log (shapeCast S2048x1 r shapeCasts_S2048_S2048x1 (ix2 p (0 : Fin 1))) = _
  rw [shapeCast_a_a1_apply]

/-! ## The lane reductions of a block, at a row -/

/-- The value the maximum is folded from. -/
abbrev ninf : EReal := Ideal.ofBits .f32 0xFF800000#32

/-- The block's row maxima at row `p`: the fold of `max` over the row's 64 entries. -/
theorem rowmax_apply (z : FVec Ideal S2048x64 .f32) (p : Fin 2048) :
    multiReduction .maximumf [1] S2048 z 0xFF800000#32 reduces_S2048x64_S2048 (.inl rfl) rfl (ix1 p)
      = rowMax ninf (fun o => z (ix2 p o)) := by
  refine (Ideal.multiReduction_maximumf_single z 0xFF800000#32 reduces_S2048x64_S2048 (.inl rfl) rfl (ix1 p)).trans ?_
  unfold rowMax
  show (Finset.univ : Finset (Fin 64)).fold max ninf (z ∘ reduces_S2048x64_S2048.lift (ix1 p)) = _
  refine Finset.fold_congr fun k _ => ?_
  exact congrArg z (funext fun a => Fin.ext (by match a with | ⟨0, _⟩ => rfl | ⟨1, _⟩ => rfl))

/-- The block's row sums at row `p`: the sum of the row's 64 entries. -/
theorem rowsum_apply (y : FVec Ideal S2048x64 .f32) (p : Fin 2048) :
    multiReduction .add [1] S2048 y 0x00000000#32 reduces_S2048x64_S2048 (.inl rfl) rfl (ix1 p)
      = ∑ o : Fin 64, y (ix2 p o) := by
  refine (Ideal.multiReduction_add_single y 0x00000000#32 reduces_S2048x64_S2048 (.inl rfl) rfl (ix1 p)).trans ?_
  show ∑ k : Fin 64, y (reduces_S2048x64_S2048.lift (ix1 p) k) = _
  refine Finset.sum_congr rfl fun k _ => ?_
  exact congrArg y (funext fun a => Fin.ext (by match a with | ⟨0, _⟩ => rfl | ⟨1, _⟩ => rfl))

/-! ## The log-softmax of a block of logits -/

/-- The body's log-softmax of a block `z` of logits: subtract the row maximum, then the logarithm of the row sum of
    exponentials. -/
def lsmBlock (z : FVec Ideal S2048x64 .f32) : FVec Ideal S2048x64 .f32 :=
  subf (subf z (broadcastTo S2048x64 (shapeCast S2048x1 (multiReduction .maximumf [1] S2048 z 0xFF800000#32 reduces_S2048x64_S2048 (.inl rfl) rfl) shapeCasts_S2048_S2048x1) broadcasts_S2048x1_S2048x64))
    (broadcastTo S2048x64 (log (shapeCast S2048x1 (multiReduction .add [1] S2048
      (exp (subf z (broadcastTo S2048x64 (shapeCast S2048x1 (multiReduction .maximumf [1] S2048 z 0xFF800000#32 reduces_S2048x64_S2048 (.inl rfl) rfl) shapeCasts_S2048_S2048x1) broadcasts_S2048x1_S2048x64)))
      0x00000000#32 reduces_S2048x64_S2048 (.inl rfl) rfl) shapeCasts_S2048_S2048x1)) broadcasts_S2048x1_S2048x64)

/-- A logit minus its row's maximum. -/
theorem shifted_apply (z : FVec Ideal S2048x64 .f32) (p : Fin 2048) (o : Fin 64) :
    subf z (broadcastTo S2048x64 (shapeCast S2048x1 (multiReduction .maximumf [1] S2048 z 0xFF800000#32 reduces_S2048x64_S2048 (.inl rfl) rfl) shapeCasts_S2048_S2048x1) broadcasts_S2048x1_S2048x64) (ix2 p o)
      = z (ix2 p o) - rowMax ninf (fun o' => z (ix2 p o')) := by
  show z (ix2 p o) - broadcastTo S2048x64 (shapeCast S2048x1 (multiReduction .maximumf [1] S2048 z 0xFF800000#32 reduces_S2048x64_S2048 (.inl rfl) rfl) shapeCasts_S2048_S2048x1) broadcasts_S2048x1_S2048x64 (ix2 p o) = _
  rw [column_apply, rowmax_apply]

/-- The block's log-softmax at `(p, o)` is the row function of row `p`. -/
theorem lsmBlock_apply (z : FVec Ideal S2048x64 .f32) (p : Fin 2048) (o : Fin 64) :
    lsmBlock z (ix2 p o) = logSoftmax ninf (fun o' => z (ix2 p o')) o := by
  unfold lsmBlock logSoftmax
  show subf z _ (ix2 p o) - broadcastTo S2048x64 (log (shapeCast S2048x1 (multiReduction .add [1] S2048 _ 0x00000000#32 reduces_S2048x64_S2048 (.inl rfl) rfl) shapeCasts_S2048_S2048x1)) broadcasts_S2048x1_S2048x64 (ix2 p o) = _
  rw [shifted_apply, column_log_apply, rowsum_apply]
  refine congrArg (fun s => (z (ix2 p o) - rowMax ninf fun o' => z (ix2 p o')) - Ideal.log s) (Finset.sum_congr rfl fun o' _ => ?_)
  show Ideal.exp (subf z _ (ix2 p o')) = _
  rw [shifted_apply]

/-! ## The three stored values at a row -/

/-- The head's logits of the block: the two products plus the bias row. -/
theorem logits_apply (v0 v1 : FVec Ideal S2048x64 .f32) (v11 v13 : FVec Ideal S64x64 .bf16) (v38 : FVec Ideal S1x64 .f32) (p : Fin 2048) (o : Fin 64) :
    addf (k0_pay7 v0 v1 v11 v13) (broadcastTo S2048x64 (shapeCast S1x64 v38 shapeCasts_S1x64_S1x64) broadcasts_S1x64_S2048x64) (ix2 p o)
      = headLogit (fun k => v0 (ix2 p k)) (fun k => v1 (ix2 p k)) (fun o k => v11 (ix2 k o)) (fun o k => v13 (ix2 k o)) (fun o => v38 (ix2 (0 : Fin 1) o)) o := by
  unfold headLogit
  show (matmul dot_S2048x64_S64x64_S2048x64_1_0_0_1_n_n none (truncf .bf16 v0 bitsLt_bf16_f32) (shapeCast S64x64 v11 shapeCasts_S64x64_S64x64) (constant (F := Ideal) S2048x64 .f32 0x00000000#32) (ix2 p o)
      + matmul dot_S2048x64_S64x64_S2048x64_1_0_0_1_n_n none (truncf .bf16 (shapeCast S2048x64 v1 shapeCasts_S2048x64_S2048x64) bitsLt_bf16_f32) (shapeCast S64x64 v13 shapeCasts_S64x64_S64x64) (constant (F := Ideal) S2048x64 .f32 0x00000000#32) (ix2 p o))
      + broadcastTo S2048x64 (shapeCast S1x64 v38 shapeCasts_S1x64_S1x64) broadcasts_S1x64_S2048x64 (ix2 p o) = _
  rw [matmul_head_apply, matmul_head_apply, broadcastTo_1b_ab_apply, shapeCast_self, shapeCast_self, shapeCast_self, shapeCast_self]
  rfl

/-- The stored log-probabilities at `(p, o)`. -/
theorem logp_apply (v0 v1 : FVec Ideal S2048x64 .f32) (v11 v13 : FVec Ideal S64x64 .bf16) (v38 : FVec Ideal S1x64 .f32) (p : Fin 2048) (o : Fin 64) :
    k0_pay1 (F := Ideal) (k0_pay7 v0 v1 v11 v13) v38 (ix2 p o)
      = logSoftmax ninf (headLogit (fun k => v0 (ix2 p k)) (fun k => v1 (ix2 p k)) (fun o k => v11 (ix2 k o)) (fun o k => v13 (ix2 k o)) (fun o => v38 (ix2 (0 : Fin 1) o))) o := by
  show lsmBlock (addf (k0_pay7 v0 v1 v11 v13) (broadcastTo S2048x64 (shapeCast S1x64 v38 shapeCasts_S1x64_S1x64) broadcasts_S1x64_S2048x64)) (ix2 p o) = _
  rw [lsmBlock_apply]
  exact congrArg (fun z => logSoftmax ninf z o) (funext fun o' => logits_apply v0 v1 v11 v13 v38 p o')

/-- The gate pre-activations of the block at `(p, j)`. -/
theorem gates_apply (v0 v1 : FVec Ideal S2048x64 .f32) (v7 v9 : FVec Ideal S64x256 .bf16) (v18 : FVec Ideal S1x256 .f32) (p : Fin 2048) (j : Fin 256) :
    k0_pay4 (F := Ideal) v0 v1 v7 v9 v18 (ix2 p j)
      = gatePre (fun k => v0 (ix2 p k)) (fun k => v1 (ix2 p k)) (fun j k => v7 (ix2 k j)) (fun j k => v9 (ix2 k j)) (fun j => v18 (ix2 (0 : Fin 1) j)) j := by
  unfold gatePre
  show (matmul dot_S2048x64_S64x256_S2048x256_1_0_0_1_n_n none (truncf .bf16 v0 bitsLt_bf16_f32) (shapeCast S64x256 v7 shapeCasts_S64x256_S64x256) (constant (F := Ideal) S2048x256 .f32 0x00000000#32) (ix2 p j)
      + matmul dot_S2048x64_S64x256_S2048x256_1_0_0_1_n_n none (truncf .bf16 (shapeCast S2048x64 v1 shapeCasts_S2048x64_S2048x64) bitsLt_bf16_f32) (shapeCast S64x256 v9 shapeCasts_S64x256_S64x256) (constant (F := Ideal) S2048x256 .f32 0x00000000#32) (ix2 p j))
      + broadcastTo S2048x256 (shapeCast S1x256 v18 shapeCasts_S1x256_S1x256) broadcasts_S1x256_S2048x256 (ix2 p j) = _
  rw [matmul_gate_apply, matmul_gate_apply, broadcastTo_1b_ab_apply, shapeCast_self, shapeCast_self, shapeCast_self, shapeCast_self]
  rfl

/-- The stored cell state at `(p, q)`. -/
theorem cell_apply (v0 v1 v3 : FVec Ideal S2048x64 .f32) (v7 v9 : FVec Ideal S64x256 .bf16) (v18 : FVec Ideal S1x256 .f32) (p : Fin 2048) (q : Fin 64) :
    k0_pay5 (F := Ideal) v0 v1 v3 v7 v9 v18 (ix2 p q)
      = cellNext (fun k => v0 (ix2 p k)) (fun k => v1 (ix2 p k)) (fun k => v3 (ix2 p k)) (fun j k => v7 (ix2 k j)) (fun j k => v9 (ix2 k j)) (fun j => v18 (ix2 (0 : Fin 1) j)) q := by
  unfold cellNext
  show Ideal.logistic (extractStridedSlice S2048x64 ![0, 64] (k0_pay4 (F := Ideal) v0 v1 v7 v9 v18) slices_S2048x256_o0_64_S2048x64 (ix2 p q)) * shapeCast S2048x64 v3 shapeCasts_S2048x64_S2048x64 (ix2 p q)
      + Ideal.logistic (extractStridedSlice S2048x64 ![0, 0] (k0_pay4 (F := Ideal) v0 v1 v7 v9 v18) slices_S2048x256_o0_0_S2048x64 (ix2 p q))
        * Ideal.tanh (extractStridedSlice S2048x64 ![0, 128] (k0_pay4 (F := Ideal) v0 v1 v7 v9 v18) slices_S2048x256_o0_128_S2048x64 (ix2 p q)) = _
  rw [slice2_axis1_eq 64, slice2_axis1_eq 0, slice2_axis1_eq 128, shapeCast_self, gates_apply, gates_apply, gates_apply]

/-- The stored hidden state at `(p, q)`. -/
theorem hidden_apply (v0 v1 v3 : FVec Ideal S2048x64 .f32) (v7 v9 : FVec Ideal S64x256 .bf16) (v18 : FVec Ideal S1x256 .f32) (p : Fin 2048) (q : Fin 64) :
    k0_pay6 (F := Ideal) v0 v1 v3 v7 v9 v18 (ix2 p q)
      = hiddenNext (fun k => v0 (ix2 p k)) (fun k => v1 (ix2 p k)) (fun k => v3 (ix2 p k)) (fun j k => v7 (ix2 k j)) (fun j k => v9 (ix2 k j)) (fun j => v18 (ix2 (0 : Fin 1) j)) q := by
  unfold hiddenNext
  show Ideal.logistic (extractStridedSlice S2048x64 ![0, 192] (k0_pay4 (F := Ideal) v0 v1 v7 v9 v18) slices_S2048x256_o0_192_S2048x64 (ix2 p q))
      * Ideal.tanh (k0_pay5 (F := Ideal) v0 v1 v3 v7 v9 v18 (ix2 p q)) = _
  rw [slice2_axis1_eq 192, gates_apply, cell_apply]

end Cert.KernelIdeal.RowValue

end
-- ==== Proof.ArraySpec.lean ====
/-
  The three results as functions of the nine argument arrays, over the extended reals.

  Row `b` of the batch uses row `b` of the input `x` and rows `(0, b)` of the hidden and cell states `h0`, `c0`
  (which carry a leading axis of length one). The head's weight `Wo` is 64 × 128: its first 64 columns multiply the
  input, its last 64 the hidden state. The gate weights are used row by row (row `j` of `Wih`, `Whh` gives gate
  pre-activation `j`), and the gate bias is the sum of the two bias vectors.
  The log-probabilities form a 524288 × 64 array; the next hidden and cell states are stated both as 524288 × 64
  arrays and with the leading unit axis the programs return them with.
-/
import proofs.«166299_j26852135535256_1_alg».proof.Proof.RowSpec
import Idealize.ShloMosaic.Lib.ValueIdx

noncomputable section

namespace Cert.ArraySpec

open Idealize.ShloMosaic Idealize.ShloMosaic.ValueIdx Cert.RowSpec

/-- The value every row maximum is folded from (the word both programs print). -/
abbrev ninf : EReal := Ideal.ofBits .f32 0xFF800000#32

variable (x : (⟨2, ![524288, 64]⟩ : Shape).Idx → EReal) (h0 c0 : (⟨3, ![1, 524288, 64]⟩ : Shape).Idx → EReal)
  (Wih Whh : (⟨2, ![256, 64]⟩ : Shape).Idx → EReal) (bih bhh : (⟨1, ![256]⟩ : Shape).Idx → EReal)
  (Wo : (⟨2, ![64, 128]⟩ : Shape).Idx → EReal) (bo : (⟨1, ![64]⟩ : Shape).Idx → EReal)

/-- Row `b` of the input. -/
abbrev xRow (b : Fin 524288) : Fin 64 → EReal := fun k => x (ix2 b k)
/-- Row `b` of a state array with a leading unit axis. -/
abbrev sRow (s : (⟨3, ![1, 524288, 64]⟩ : Shape).Idx → EReal) (b : Fin 524288) : Fin 64 → EReal := fun k => s (ix3 (0 : Fin 1) b k)
/-- The half of the head's weight that multiplies the input: columns 0..63. -/
abbrev WoX : Fin 64 → Fin 64 → EReal := fun o k => Wo (ix2 o ⟨k.val, by have := k.isLt; omega⟩)
/-- The half that multiplies the hidden state: columns 64..127. -/
abbrev WoH : Fin 64 → Fin 64 → EReal := fun o k => Wo (ix2 o ⟨64 + k.val, by have := k.isLt; omega⟩)

/-- Log-probability `o` of row `b`. -/
def logpAt (b : Fin 524288) (o : Fin 64) : EReal :=
  logSoftmax ninf (headLogit (xRow x b) (sRow h0 b) (WoX Wo) (WoH Wo) (fun o => bo (ix1 o))) o

/-- Entry `q` of row `b`'s next cell state. -/
def cellAt (b : Fin 524288) (q : Fin 64) : EReal :=
  cellNext (xRow x b) (sRow h0 b) (sRow c0 b) (fun j k => Wih (ix2 j k)) (fun j k => Whh (ix2 j k)) (fun j => bih (ix1 j) + bhh (ix1 j)) q

/-- Entry `q` of row `b`'s next hidden state. -/
def hiddenAt (b : Fin 524288) (q : Fin 64) : EReal :=
  hiddenNext (xRow x b) (sRow h0 b) (sRow c0 b) (fun j k => Wih (ix2 j k)) (fun j k => Whh (ix2 j k)) (fun j => bih (ix1 j) + bhh (ix1 j)) q

/-- The log-probabilities as a 524288 × 64 array. -/
def logpArr : (⟨2, ![524288, 64]⟩ : Shape).Idx → EReal := fun i => logpAt x h0 Wo bo (i 0) (i 1)
/-- The next cell state as a 524288 × 64 array. -/
def cellArr : (⟨2, ![524288, 64]⟩ : Shape).Idx → EReal := fun i => cellAt x h0 c0 Wih Whh bih bhh (i 0) (i 1)
/-- The next hidden state as a 524288 × 64 array. -/
def hiddenArr : (⟨2, ![524288, 64]⟩ : Shape).Idx → EReal := fun i => hiddenAt x h0 c0 Wih Whh bih bhh (i 0) (i 1)
/-- The next cell state with the leading unit axis. -/
def cellArr3 : (⟨3, ![1, 524288, 64]⟩ : Shape).Idx → EReal := fun i => cellAt x h0 c0 Wih Whh bih bhh (i 1) (i 2)
/-- The next hidden state with the leading unit axis. -/
def hiddenArr3 : (⟨3, ![1, 524288, 64]⟩ : Shape).Idx → EReal := fun i => hiddenAt x h0 c0 Wih Whh bih bhh (i 1) (i 2)

end Cert.ArraySpec

end
-- ==== Proof.KernelArray.lean ====
/-
  The kernel program's three results as whole arrays.

  The region's twelve windows: the input and the two reshaped states are cut into 256 blocks of 2048 rows; the six
  weight and bias windows are fetched whole; each of the three outputs is written back one 2048-row block per grid
  point. Here:
  * what the host lines before the region leave in the windows' arrays is read at an index from the arguments
    (a reshape that drops the leading unit axis; a transpose; a column slice of the head's weight then a transpose;
    the sum of the two gate biases as one row);
  * what grid point `t` writes back is block `t` of the whole-array functions of Proof/ArraySpec.lean;
  * the 256 blocks cover the arrays, so after the region each output array is that function;
  * the two host lines after the region put the leading unit axis back on the hidden and cell states.
-/
import proofs.«166299_j26852135535256_1_alg».proof.Proof.Gen.KernelIdeal.Frame
import proofs.«166299_j26852135535256_1_alg».proof.Proof.KernelRow
import proofs.«166299_j26852135535256_1_alg».proof.Proof.ArraySpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.RowSpec Cert.ArraySpec Cert.KernelIdeal.RowValue

variable (m : (ℓ : Loc nD τ sig) → Buf (Elt Ideal) ℓ) (ρ : Dev nD → PrngReg)

/-! ## The arrays as the region finds them -/

/-- The argument arrays as launched, at their literal types. -/
abbrev aX (c : Dev nD) : S524288x64.Idx → EReal := m ((c : Thread nD τ).loc main_arg0)
abbrev aH (c : Dev nD) : S1x524288x64.Idx → EReal := m ((c : Thread nD τ).loc main_arg1)
abbrev aC (c : Dev nD) : S1x524288x64.Idx → EReal := m ((c : Thread nD τ).loc main_arg2)
abbrev aWih (c : Dev nD) : S256x64.Idx → EReal := m ((c : Thread nD τ).loc main_arg3)
abbrev aWhh (c : Dev nD) : S256x64.Idx → EReal := m ((c : Thread nD τ).loc main_arg4)
abbrev aBih (c : Dev nD) : S256.Idx → EReal := m ((c : Thread nD τ).loc main_arg5)
abbrev aBhh (c : Dev nD) : S256.Idx → EReal := m ((c : Thread nD τ).loc main_arg6)
abbrev aWo (c : Dev nD) : S64x128.Idx → EReal := m ((c : Thread nD τ).loc main_arg7)
abbrev aBo (c : Dev nD) : S64.Idx → EReal := m ((c : Thread nD τ).loc main_arg8)

/-- The hidden state without its leading axis. -/
theorem V_h (c : Dev nD) : (V m c main_v0 : S524288x64.Idx → EReal) = shapeCast S524288x64 (aH m c) shapeCasts_S1x524288x64_S524288x64 := by
  show StableHlo.after hostOps0 (fun b => m (c, b)) (Proc.devRef .tc main_v0) = _
  after_results
  rfl

/-- The cell state without its leading axis. -/
theorem V_c (c : Dev nD) : (V m c main_v1 : S524288x64.Idx → EReal) = shapeCast S524288x64 (aC m c) shapeCasts_S1x524288x64_S524288x64 := by
  show StableHlo.after hostOps0 (fun b => m (c, b)) (Proc.devRef .tc main_v1) = _
  after_results
  rfl

/-- The input-to-gates weight, transposed (and narrowed, which changes nothing here). -/
theorem V_wih (c : Dev nD) : (V m c main_v5 : S64x256.Idx → EReal)
    = truncf (F := Ideal) .bf16 (transpose S64x256 [1, 0] (aWih m c) transposes_S256x64_S64x256_1_0) bitsLt_bf16_f32 := by
  show StableHlo.after hostOps0 (fun b => m (c, b)) (Proc.devRef .tc main_v5) = _
  after_results <;> rfl

/-- The hidden-to-gates weight, transposed. -/
theorem V_whh (c : Dev nD) : (V m c main_v7 : S64x256.Idx → EReal)
    = truncf (F := Ideal) .bf16 (transpose S64x256 [1, 0] (aWhh m c) transposes_S256x64_S64x256_1_0) bitsLt_bf16_f32 := by
  show StableHlo.after hostOps0 (fun b => m (c, b)) (Proc.devRef .tc main_v7) = _
  after_results <;> rfl

/-- The head's weight on the input: its first 64 columns, transposed. -/
theorem V_ux (c : Dev nD) : (V m c main_v9 : S64x64.Idx → EReal)
    = truncf (F := Ideal) .bf16 (transpose S64x64 [1, 0] (extractStridedSlice S64x64 ![0, 0] (aWo m c) slices_S64x128_S64x64_0_0) transposes_S64x64_S64x64_1_0) bitsLt_bf16_f32 := by
  show StableHlo.after hostOps0 (fun b => m (c, b)) (Proc.devRef .tc main_v9) = _
  after_results <;> rfl

/-- The head's weight on the hidden state: its last 64 columns, transposed. -/
theorem V_uh (c : Dev nD) : (V m c main_v11 : S64x64.Idx → EReal)
    = truncf (F := Ideal) .bf16 (transpose S64x64 [1, 0] (extractStridedSlice S64x64 ![0, 64] (aWo m c) slices_S64x128_S64x64_0_64) transposes_S64x64_S64x64_1_0) bitsLt_bf16_f32 := by
  show StableHlo.after hostOps0 (fun b => m (c, b)) (Proc.devRef .tc main_v11) = _
  after_results <;> rfl

/-- The two gate biases added, as one row. -/
theorem V_bg (c : Dev nD) : (V m c main_v13 : S1x256.Idx → EReal)
    = shapeCast S1x256 (addf (F := Ideal) (φ := .f32) (aBih m c) (aBhh m c)) shapeCasts_S256_S1x256 := by
  show StableHlo.after hostOps0 (fun b => m (c, b)) (Proc.devRef .tc main_v13) = _
  after_results
  rfl

/-- The head's bias as one row. -/
theorem V_bo (c : Dev nD) : (V m c main_v14 : S1x64.Idx → EReal) = shapeCast S1x64 (aBo m c) shapeCasts_S64_S1x64 := by
  show StableHlo.after hostOps0 (fun b => m (c, b)) (Proc.devRef .tc main_v14) = _
  after_results
  rfl

/-! ### … read at an index -/

theorem h_at (c : Dev nD) (b : Fin 524288) (k : Fin 64) :
    (V m c main_v0 : S524288x64.Idx → EReal) (ix2 b k) = aH m c (ix3 (0 : Fin 1) b k) := by
  rw [V_h]; exact shapeCast_1ab_ab_apply _ _ b k

theorem c_at (c : Dev nD) (b : Fin 524288) (k : Fin 64) :
    (V m c main_v1 : S524288x64.Idx → EReal) (ix2 b k) = aC m c (ix3 (0 : Fin 1) b k) := by
  rw [V_c]; exact shapeCast_1ab_ab_apply _ _ b k

theorem wih_at (c : Dev nD) (k : Fin 64) (j : Fin 256) :
    (V m c main_v5 : S64x256.Idx → EReal) (ix2 k j) = aWih m c (ix2 j k) := by
  rw [V_wih]
  exact transpose_apply [1, 0] (aWih m c) transposes_S256x64_S64x256_1_0 (ix2 k j) (ix2 j k) (fun b => match b with
    | ⟨0, _⟩ => rfl
    | ⟨1, _⟩ => rfl)

theorem whh_at (c : Dev nD) (k : Fin 64) (j : Fin 256) :
    (V m c main_v7 : S64x256.Idx → EReal) (ix2 k j) = aWhh m c (ix2 j k) := by
  rw [V_whh]
  exact transpose_apply [1, 0] (aWhh m c) transposes_S256x64_S64x256_1_0 (ix2 k j) (ix2 j k) (fun b => match b with
    | ⟨0, _⟩ => rfl
    | ⟨1, _⟩ => rfl)

theorem ux_at (c : Dev nD) (k o : Fin 64) :
    (V m c main_v9 : S64x64.Idx → EReal) (ix2 k o) = WoX (aWo m c) o k := by
  rw [V_ux]
  refine (transpose_apply [1, 0] (extractStridedSlice S64x64 ![0, 0] (aWo m c) slices_S64x128_S64x64_0_0) transposes_S64x64_S64x64_1_0 (ix2 k o) (ix2 o k) (fun b => match b with
    | ⟨0, _⟩ => rfl
    | ⟨1, _⟩ => rfl)).trans ?_
  exact slice2_axis1_apply 0 (aWo m c) slices_S64x128_S64x64_0_0 o k _ (Nat.zero_add _).symm

theorem uh_at (c : Dev nD) (k o : Fin 64) :
    (V m c main_v11 : S64x64.Idx → EReal) (ix2 k o) = WoH (aWo m c) o k := by
  rw [V_uh]
  refine (transpose_apply [1, 0] (extractStridedSlice S64x64 ![0, 64] (aWo m c) slices_S64x128_S64x64_0_64) transposes_S64x64_S64x64_1_0 (ix2 k o) (ix2 o k) (fun b => match b with
    | ⟨0, _⟩ => rfl
    | ⟨1, _⟩ => rfl)).trans ?_
  exact slice2_axis1_apply 64 (aWo m c) slices_S64x128_S64x64_0_64 o k _ rfl

theorem bg_at (c : Dev nD) (j : Fin 256) :
    (V m c main_v13 : S1x256.Idx → EReal) (ix2 (0 : Fin 1) j) = aBih m c (ix1 j) + aBhh m c (ix1 j) := by
  rw [V_bg]; exact shapeCast_a_1a_apply _ _ 0 j

theorem bo_at (c : Dev nD) (o : Fin 64) :
    (V m c main_v14 : S1x64.Idx → EReal) (ix2 (0 : Fin 1) o) = aBo m c (ix1 o) := by
  rw [V_bo]; exact shapeCast_a_1a_apply _ _ 0 o

/-! ## The blocks a grid point reads -/

/-- The printed index maps over the 256 grid points: the three row-tiled inputs and the three outputs are at block
    `t` of the rows and block 0 of the columns; the six weight and bias windows are always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Grid point `t` has fewer than 256 predecessors. -/
theorem t_lt (t : Fin cfg0.N) : t.val < 256 := by
  have h := t.isLt
  have hN : cfg0.N = 256 := N_0
  omega

/-- The batch row that row `p` of block `t` is. -/
abbrev rowOf (t : Fin cfg0.N) (p : Fin 2048) : Fin 524288 := ⟨t.val * 2048 + p.val, by have := t_lt t; have := p.isLt; omega⟩

/-- The blocks at point `t`, at their literal types. -/
abbrev xblk (c : Dev nD) (t : Fin cfg0.N) : FVec Ideal S2048x64 .f32 := iblk m c 0 t
abbrev hblk (c : Dev nD) (t : Fin cfg0.N) : FVec Ideal S2048x64 .f32 := iblk m c 1 t
abbrev cblk (c : Dev nD) (t : Fin cfg0.N) : FVec Ideal S2048x64 .f32 := iblk m c 2 t
abbrev wihblk (c : Dev nD) (t : Fin cfg0.N) : FVec Ideal S64x256 .bf16 := iblk m c 3 t
abbrev whhblk (c : Dev nD) (t : Fin cfg0.N) : FVec Ideal S64x256 .bf16 := iblk m c 4 t
abbrev uxblk (c : Dev nD) (t : Fin cfg0.N) : FVec Ideal S64x64 .bf16 := iblk m c 5 t
abbrev uhblk (c : Dev nD) (t : Fin cfg0.N) : FVec Ideal S64x64 .bf16 := iblk m c 6 t
abbrev bgblk (c : Dev nD) (t : Fin cfg0.N) : FVec Ideal S1x256 .f32 := iblk m c 7 t
abbrev boblk (c : Dev nD) (t : Fin cfg0.N) : FVec Ideal S1x64 .f32 := iblk m c 8 t

theorem x_blk (c : Dev nD) (t : Fin cfg0.N) (p : Fin 2048) (k : Fin 64) :
    xblk m c t (ix2 p k) = aX m c (ix2 (rowOf t p) k) := by
  obtain ⟨e0, e1, -⟩ := idx_facts t
  show V m c main_arg0 (((cfg0.win 0).blk t).view.emb (ix2 p k)) = _
  rw [V_main_arg0]
  exact congrArg (aX m c) (funext fun a => Fin.ext (by
    match a with
    | ⟨0, _⟩ => show win0_0.index t (0 : Fin 2) * 2048 + 1 * p.val = t.val * 2048 + p.val; omega
    | ⟨1, _⟩ => show win0_0.index t (1 : Fin 2) * 64 + 1 * k.val = k.val; omega))

theorem h_blk (c : Dev nD) (t : Fin cfg0.N) (p : Fin 2048) (k : Fin 64) :
    hblk m c t (ix2 p k) = aH m c (ix3 (0 : Fin 1) (rowOf t p) k) := by
  obtain ⟨-, -, e0, e1, -⟩ := idx_facts t
  show (V m c main_v0 : S524288x64.Idx → EReal) (((cfg0.win 1).blk t).view.emb (ix2 p k)) = _
  have he : ((cfg0.win 1).blk t).view.emb (ix2 p k) = ix2 (rowOf t p) k := funext fun a => Fin.ext (by
    match a with
    | ⟨0, _⟩ => show win0_1.index t (0 : Fin 2) * 2048 + 1 * p.val = t.val * 2048 + p.val; omega
    | ⟨1, _⟩ => show win0_1.index t (1 : Fin 2) * 64 + 1 * k.val = k.val; omega)
  rw [he]; exact h_at m c _ k

theorem c_blk (c : Dev nD) (t : Fin cfg0.N) (p : Fin 2048) (k : Fin 64) :
    cblk m c t (ix2 p k) = aC m c (ix3 (0 : Fin 1) (rowOf t p) k) := by
  obtain ⟨-, -, -, -, e0, e1, -⟩ := idx_facts t
  show (V m c main_v1 : S524288x64.Idx → EReal) (((cfg0.win 2).blk t).view.emb (ix2 p k)) = _
  have he : ((cfg0.win 2).blk t).view.emb (ix2 p k) = ix2 (rowOf t p) k := funext fun a => Fin.ext (by
    match a with
    | ⟨0, _⟩ => show win0_2.index t (0 : Fin 2) * 2048 + 1 * p.val = t.val * 2048 + p.val; omega
    | ⟨1, _⟩ => show win0_2.index t (1 : Fin 2) * 64 + 1 * k.val = k.val; omega)
  rw [he]; exact c_at m c _ k

theorem wih_blk (c : Dev nD) (t : Fin cfg0.N) (k : Fin 64) (j : Fin 256) :
    wihblk m c t (ix2 k j) = aWih m c (ix2 j k) := by
  obtain ⟨-, -, -, -, -, -, e0, e1, -⟩ := idx_facts t
  show (V m c main_v5 : S64x256.Idx → EReal) (((cfg0.win 3).blk t).view.emb (ix2 k j)) = _
  have he : ((cfg0.win 3).blk t).view.emb (ix2 k j) = ix2 k j := funext fun a => Fin.ext (by
    match a with
    | ⟨0, _⟩ => show win0_3.index t (0 : Fin 2) * 64 + 1 * k.val = k.val; omega
    | ⟨1, _⟩ => show win0_3.index t (1 : Fin 2) * 256 + 1 * j.val = j.val; omega)
  rw [he]; exact wih_at m c k j

theorem whh_blk (c : Dev nD) (t : Fin cfg0.N) (k : Fin 64) (j : Fin 256) :
    whhblk m c t (ix2 k j) = aWhh m c (ix2 j k) := by
  obtain ⟨-, -, -, -, -, -, -, -, e0, e1, -⟩ := idx_facts t
  show (V m c main_v7 : S64x256.Idx → EReal) (((cfg0.win 4).blk t).view.emb (ix2 k j)) = _
  have he : ((cfg0.win 4).blk t).view.emb (ix2 k j) = ix2 k j := funext fun a => Fin.ext (by
    match a with
    | ⟨0, _⟩ => show win0_4.index t (0 : Fin 2) * 64 + 1 * k.val = k.val; omega
    | ⟨1, _⟩ => show win0_4.index t (1 : Fin 2) * 256 + 1 * j.val = j.val; omega)
  rw [he]; exact whh_at m c k j

theorem ux_blk (c : Dev nD) (t : Fin cfg0.N) (k o : Fin 64) :
    uxblk m c t (ix2 k o) = WoX (aWo m c) o k := by
  obtain ⟨-, -, -, -, -, -, -, -, -, -, e0, e1, -⟩ := idx_facts t
  show (V m c main_v9 : S64x64.Idx → EReal) (((cfg0.win 5).blk t).view.emb (ix2 k o)) = _
  have he : ((cfg0.win 5).blk t).view.emb (ix2 k o) = ix2 k o := funext fun a => Fin.ext (by
    match a with
    | ⟨0, _⟩ => show win0_5.index t (0 : Fin 2) * 64 + 1 * k.val = k.val; omega
    | ⟨1, _⟩ => show win0_5.index t (1 : Fin 2) * 64 + 1 * o.val = o.val; omega)
  rw [he]; exact ux_at m c k o

theorem uh_blk (c : Dev nD) (t : Fin cfg0.N) (k o : Fin 64) :
    uhblk m c t (ix2 k o) = WoH (aWo m c) o k := by
  obtain ⟨-, -, -, -, -, -, -, -, -, -, -, -, e0, e1, -⟩ := idx_facts t
  show (V m c main_v11 : S64x64.Idx → EReal) (((cfg0.win 6).blk t).view.emb (ix2 k o)) = _
  have he : ((cfg0.win 6).blk t).view.emb (ix2 k o) = ix2 k o := funext fun a => Fin.ext (by
    match a with
    | ⟨0, _⟩ => show win0_6.index t (0 : Fin 2) * 64 + 1 * k.val = k.val; omega
    | ⟨1, _⟩ => show win0_6.index t (1 : Fin 2) * 64 + 1 * o.val = o.val; omega)
  rw [he]; exact uh_at m c k o

theorem bg_blk (c : Dev nD) (t : Fin cfg0.N) (j : Fin 256) :
    bgblk m c t (ix2 (0 : Fin 1) j) = aBih m c (ix1 j) + aBhh m c (ix1 j) := by
  obtain ⟨-, -, -, -, -, -, -, -, -, -, -, -, -, -, e0, e1, -⟩ := idx_facts t
  show (V m c main_v13 : S1x256.Idx → EReal) (((cfg0.win 7).blk t).view.emb (ix2 (0 : Fin 1) j)) = _
  have he : ((cfg0.win 7).blk t).view.emb (ix2 (0 : Fin 1) j) = ix2 (0 : Fin 1) j := funext fun a => Fin.ext (by
    match a with
    | ⟨0, _⟩ => show win0_7.index t (0 : Fin 2) * 1 + 1 * 0 = 0; omega
    | ⟨1, _⟩ => show win0_7.index t (1 : Fin 2) * 256 + 1 * j.val = j.val; omega)
  rw [he]; exact bg_at m c j

theorem bo_blk (c : Dev nD) (t : Fin cfg0.N) (o : Fin 64) :
    boblk m c t (ix2 (0 : Fin 1) o) = aBo m c (ix1 o) := by
  obtain ⟨-, -, -, -, -, -, -, -, -, -, -, -, -, -, -, -, e0, e1, -⟩ := idx_facts t
  show (V m c main_v14 : S1x64.Idx → EReal) (((cfg0.win 8).blk t).view.emb (ix2 (0 : Fin 1) o)) = _
  have he : ((cfg0.win 8).blk t).view.emb (ix2 (0 : Fin 1) o) = ix2 (0 : Fin 1) o := funext fun a => Fin.ext (by
    match a with
    | ⟨0, _⟩ => show win0_8.index t (0 : Fin 2) * 1 + 1 * 0 = 0; omega
    | ⟨1, _⟩ => show win0_8.index t (1 : Fin 2) * 64 + 1 * o.val = o.val; omega)
  rw [he]; exact bo_at m c o

/-! ## What a grid point writes back -/

theorem hz : (![0, 0] : Fin 2 → Nat) = fun _ => 0 := funext fun a => by fin_cases a <;> rfl

/-- The three results as arrays of the launch contents. -/
abbrev Glogp (c : Dev nD) : S524288x64.Idx → EReal := logpArr (aX m c) (aH m c) (aWo m c) (aBo m c)
abbrev Ghid (c : Dev nD) : S524288x64.Idx → EReal := hiddenArr (aX m c) (aH m c) (aC m c) (aWih m c) (aWhh m c) (aBih m c) (aBhh m c)
abbrev Gcell (c : Dev nD) : S524288x64.Idx → EReal := cellArr (aX m c) (aH m c) (aC m c) (aWih m c) (aWhh m c) (aBih m c) (aBhh m c)

/-- Point `t` writes back block `t` of the log-probabilities. -/
theorem flushed9_eq (c : Dev nD) (t : Fin cfg0.N) :
    (dats m 0 c).flushed 9 t = ((cfg0.win 9).blk t).view.read (Elt Ideal) (Glogp m c) := by
  show (cfg0.win 9).cut (grid0.coords t) ((dats m 0 c).after 9 t) = _
  rw [after0_9]
  unfold out0_9
  rw [View.canon_unit_zero hz]
  simp only [View.ld_unit_zero (S := S2048x64) hz, View.ld_unit_zero (S := S64x64) hz, View.ld_unit_zero (S := S1x64) hz]
  funext j
  obtain ⟨p, o, rfl⟩ : ∃ (p : Fin 2048) (o : Fin 64), j = ix2 p o := ⟨j 0, j 1, eq_ix2 j⟩
  obtain ⟨-, -, -, -, -, -, -, -, -, -, -, -, -, -, -, -, -, -, e0, e1, -⟩ := idx_facts t
  have hrow : ((cfg0.win 9).blk t).view.emb (ix2 p o) = ix2 (rowOf t p) o := funext fun a => Fin.ext (by
    match a with
    | ⟨0, _⟩ => show win0_9.index t (0 : Fin 2) * 2048 + 1 * p.val = t.val * 2048 + p.val; omega
    | ⟨1, _⟩ => show win0_9.index t (1 : Fin 2) * 64 + 1 * o.val = o.val; omega)
  show k0_pay1 (F := Ideal) (k0_pay7 (xblk m c t) (hblk m c t) (uxblk m c t) (uhblk m c t)) (boblk m c t) (ix2 p o)
      = Glogp m c (((cfg0.win 9).blk t).view.emb (ix2 p o))
  rw [hrow]
  refine (logp_apply (xblk m c t) (hblk m c t) (uxblk m c t) (uhblk m c t) (boblk m c t) p o).trans ?_
  show _ = logpAt (aX m c) (aH m c) (aWo m c) (aBo m c) (rowOf t p) o
  unfold logpAt
  simp only [x_blk, h_blk, ux_blk, uh_blk, bo_blk]

/-- Point \`t\` writes back block \`t\` of the next hidden state. -/
theorem flushed10_eq (c : Dev nD) (t : Fin cfg0.N) :
    (dats m 0 c).flushed 10 t = ((cfg0.win 10).blk t).view.read (Elt Ideal) (Ghid m c) := by
  show (cfg0.win 10).cut (grid0.coords t) ((dats m 0 c).after 10 t) = _
  rw [after0_10]
  unfold out0_10
  rw [View.canon_unit_zero hz]
  simp only [View.ld_unit_zero (S := S2048x64) hz, View.ld_unit_zero (S := S64x256) hz, View.ld_unit_zero (S := S1x256) hz]
  funext j
  obtain ⟨p, q, rfl⟩ : ∃ (p : Fin 2048) (q : Fin 64), j = ix2 p q := ⟨j 0, j 1, eq_ix2 j⟩
  have hI := idx_facts t
  have e0 : win0_10.index t (0 : Fin 2) = t.val := by omega
  have e1 : win0_10.index t (1 : Fin 2) = 0 := by omega
  have hrow : ((cfg0.win 10).blk t).view.emb (ix2 p q) = ix2 (rowOf t p) q := funext fun a => Fin.ext (by
    match a with
    | ⟨0, _⟩ => show win0_10.index t (0 : Fin 2) * 2048 + 1 * p.val = t.val * 2048 + p.val; omega
    | ⟨1, _⟩ => show win0_10.index t (1 : Fin 2) * 64 + 1 * q.val = q.val; omega)
  show k0_pay6 (F := Ideal) (xblk m c t) (hblk m c t) (cblk m c t) (wihblk m c t) (whhblk m c t) (bgblk m c t) (ix2 p q)
      = Ghid m c (((cfg0.win 10).blk t).view.emb (ix2 p q))
  rw [hrow]
  refine (hidden_apply (xblk m c t) (hblk m c t) (cblk m c t) (wihblk m c t) (whhblk m c t) (bgblk m c t) p q).trans ?_
  show _ = hiddenAt (aX m c) (aH m c) (aC m c) (aWih m c) (aWhh m c) (aBih m c) (aBhh m c) (rowOf t p) q
  unfold hiddenAt
  simp only [x_blk, h_blk, c_blk, wih_blk, whh_blk, bg_blk]

/-- Point \`t\` writes back block \`t\` of the next cell state. -/
theorem flushed11_eq (c : Dev nD) (t : Fin cfg0.N) :
    (dats m 0 c).flushed 11 t = ((cfg0.win 11).blk t).view.read (Elt Ideal) (Gcell m c) := by
  show (cfg0.win 11).cut (grid0.coords t) ((dats m 0 c).after 11 t) = _
  rw [after0_11]
  unfold out0_11
  rw [View.canon_unit_zero hz]
  simp only [View.ld_unit_zero (S := S2048x64) hz, View.ld_unit_zero (S := S64x256) hz, View.ld_unit_zero (S := S1x256) hz]
  funext j
  obtain ⟨p, q, rfl⟩ : ∃ (p : Fin 2048) (q : Fin 64), j = ix2 p q := ⟨j 0, j 1, eq_ix2 j⟩
  have hI := idx_facts t
  have e0 : win0_11.index t (0 : Fin 2) = t.val := by omega
  have e1 : win0_11.index t (1 : Fin 2) = 0 := by omega
  have hrow : ((cfg0.win 11).blk t).view.emb (ix2 p q) = ix2 (rowOf t p) q := funext fun a => Fin.ext (by
    match a with
    | ⟨0, _⟩ => show win0_11.index t (0 : Fin 2) * 2048 + 1 * p.val = t.val * 2048 + p.val; omega
    | ⟨1, _⟩ => show win0_11.index t (1 : Fin 2) * 64 + 1 * q.val = q.val; omega)
  show k0_pay5 (F := Ideal) (xblk m c t) (hblk m c t) (cblk m c t) (wihblk m c t) (whhblk m c t) (bgblk m c t) (ix2 p q)
      = Gcell m c (((cfg0.win 11).blk t).view.emb (ix2 p q))
  rw [hrow]
  refine (cell_apply (xblk m c t) (hblk m c t) (cblk m c t) (wihblk m c t) (whhblk m c t) (bgblk m c t) p q).trans ?_
  show _ = cellAt (aX m c) (aH m c) (aC m c) (aWih m c) (aWhh m c) (aBih m c) (aBhh m c) (rowOf t p) q
  unfold cellAt
  simp only [x_blk, h_blk, c_blk, wih_blk, whh_blk, bg_blk]

/-! ## The blocks cover the arrays -/

theorem mem_blk9 (t : Fin cfg0.N) (i : S524288x64.Idx) :
    i ∈ ((cfg0.win 9).blk t).view.set ↔ ∀ a : Fin 2, win0_9.index t a * S2048x64.size a ≤ (i a).val ∧ (i a).val < win0_9.index t a * S2048x64.size a + S2048x64.size a := by
  show i ∈ ((View.whole main_v15_0).slice (win0_9.rect t)).set ↔ _
  rw [View.set_slice_whole, Rect.mem_set_unit]
  exact Iff.rfl

/-- Every index of the array is in the block of the point its row falls in. -/
theorem cover9 (i : S524288x64.Idx) : ∃ t : Fin cfg0.N, (cfg0.win 9).flush t = true ∧ i ∈ ((cfg0.win 9).blk t).view.set := by
  have hi0 : (i 0).val < 524288 := (i 0).isLt
  have hi1 : (i 1).val < 64 := (i 1).isLt
  have hN : cfg0.N = 256 := N_0
  have hlt : (i 0).val / 2048 < cfg0.N := by rw [hN]; omega
  obtain ⟨t, ht⟩ : ∃ t : Fin cfg0.N, t.val = (i 0).val / 2048 := ⟨⟨(i 0).val / 2048, hlt⟩, rfl⟩
  obtain ⟨-, -, -, -, -, -, -, -, -, -, -, -, -, -, -, -, -, -, e0, e1, -⟩ := idx_facts t
  refine ⟨t, flush0_9 t, ?_⟩
  rw [mem_blk9]
  intro a
  match a with
  | ⟨0, _⟩ =>
    show win0_9.index t (0 : Fin 2) * 2048 ≤ (i 0).val ∧ (i 0).val < win0_9.index t (0 : Fin 2) * 2048 + 2048
    omega
  | ⟨1, _⟩ =>
    show win0_9.index t (1 : Fin 2) * 64 ≤ (i 1).val ∧ (i 1).val < win0_9.index t (1 : Fin 2) * 64 + 64
    omega

/-- The array after the region. -/
theorem final9 (c : Dev nD) : (dats m 0 c).arrAt 9 cfg0.N = Glogp m c :=
  (dats m 0 c).arrAt_eq_of_cover 9 (Glogp m c) (fun t _ => flushed9_eq m c t) cover9

theorem mem_blk10 (t : Fin cfg0.N) (i : S524288x64.Idx) :
    i ∈ ((cfg0.win 10).blk t).view.set ↔ ∀ a : Fin 2, win0_10.index t a * S2048x64.size a ≤ (i a).val ∧ (i a).val < win0_10.index t a * S2048x64.size a + S2048x64.size a := by
  show i ∈ ((View.whole main_v15_1).slice (win0_10.rect t)).set ↔ _
  rw [View.set_slice_whole, Rect.mem_set_unit]
  exact Iff.rfl

/-- Every index of the array is in the block of the point its row falls in. -/
theorem cover10 (i : S524288x64.Idx) : ∃ t : Fin cfg0.N, (cfg0.win 10).flush t = true ∧ i ∈ ((cfg0.win 10).blk t).view.set := by
  have hi0 : (i 0).val < 524288 := (i 0).isLt
  have hi1 : (i 1).val < 64 := (i 1).isLt
  have hN : cfg0.N = 256 := N_0
  have hlt : (i 0).val / 2048 < cfg0.N := by rw [hN]; omega
  obtain ⟨t, ht⟩ : ∃ t : Fin cfg0.N, t.val = (i 0).val / 2048 := ⟨⟨(i 0).val / 2048, hlt⟩, rfl⟩
  obtain ⟨-, -, -, -, -, -, -, -, -, -, -, -, -, -, -, -, -, -, -, -, e0, e1, -⟩ := idx_facts t
  refine ⟨t, flush0_10 t, ?_⟩
  rw [mem_blk10]
  intro a
  match a with
  | ⟨0, _⟩ =>
    show win0_10.index t (0 : Fin 2) * 2048 ≤ (i 0).val ∧ (i 0).val < win0_10.index t (0 : Fin 2) * 2048 + 2048
    omega
  | ⟨1, _⟩ =>
    show win0_10.index t (1 : Fin 2) * 64 ≤ (i 1).val ∧ (i 1).val < win0_10.index t (1 : Fin 2) * 64 + 64
    omega

/-- The array after the region. -/
theorem final10 (c : Dev nD) : (dats m 0 c).arrAt 10 cfg0.N = Ghid m c :=
  (dats m 0 c).arrAt_eq_of_cover 10 (Ghid m c) (fun t _ => flushed10_eq m c t) cover10

theorem mem_blk11 (t : Fin cfg0.N) (i : S524288x64.Idx) :
    i ∈ ((cfg0.win 11).blk t).view.set ↔ ∀ a : Fin 2, win0_11.index t a * S2048x64.size a ≤ (i a).val ∧ (i a).val < win0_11.index t a * S2048x64.size a + S2048x64.size a := by
  show i ∈ ((View.whole main_v15_2).slice (win0_11.rect t)).set ↔ _
  rw [View.set_slice_whole, Rect.mem_set_unit]
  exact Iff.rfl

/-- Every index of the array is in the block of the point its row falls in. -/
theorem cover11 (i : S524288x64.Idx) : ∃ t : Fin cfg0.N, (cfg0.win 11).flush t = true ∧ i ∈ ((cfg0.win 11).blk t).view.set := by
  have hi0 : (i 0).val < 524288 := (i 0).isLt
  have hi1 : (i 1).val < 64 := (i 1).isLt
  have hN : cfg0.N = 256 := N_0
  have hlt : (i 0).val / 2048 < cfg0.N := by rw [hN]; omega
  obtain ⟨t, ht⟩ : ∃ t : Fin cfg0.N, t.val = (i 0).val / 2048 := ⟨⟨(i 0).val / 2048, hlt⟩, rfl⟩
  obtain ⟨-, -, -, -, -, -, -, -, -, -, -, -, -, -, -, -, -, -, -, -, -, -, e0, e1⟩ := idx_facts t
  refine ⟨t, flush0_11 t, ?_⟩
  rw [mem_blk11]
  intro a
  match a with
  | ⟨0, _⟩ =>
    show win0_11.index t (0 : Fin 2) * 2048 ≤ (i 0).val ∧ (i 0).val < win0_11.index t (0 : Fin 2) * 2048 + 2048
    omega
  | ⟨1, _⟩ =>
    show win0_11.index t (1 : Fin 2) * 64 ≤ (i 1).val ∧ (i 1).val < win0_11.index t (1 : Fin 2) * 64 + 64
    omega

/-- The array after the region. -/
theorem final11 (c : Dev nD) : (dats m 0 c).arrAt 11 cfg0.N = Gcell m c :=
  (dats m 0 c).arrAt_eq_of_cover 11 (Gcell m c) (fun t _ => flushed11_eq m c t) cover11

/-! ## The lines after the region, and the run -/

/-- The next hidden state and cell state with their leading unit axis. -/
abbrev Ghid3 (c : Dev nD) : S1x524288x64.Idx → EReal := hiddenArr3 (aX m c) (aH m c) (aC m c) (aWih m c) (aWhh m c) (aBih m c) (aBhh m c)
abbrev Gcell3 (c : Dev nD) : S1x524288x64.Idx → EReal := cellArr3 (aX m c) (aH m c) (aC m c) (aWih m c) (aWhh m c) (aBih m c) (aBhh m c)

/-- Putting a leading unit axis on a 524288 × 64 array of per-row values gives the same values at `(0, b, q)`. -/
theorem lead_axis (G : S524288x64.Idx → EReal) (G3 : S1x524288x64.Idx → EReal)
    (hG : ∀ (u : Fin 1) (b : Fin 524288) (q : Fin 64), G3 (ix3 u b q) = G (ix2 b q)) :
    broadcastInDim S1x524288x64 ![1, 2] bcast_S524288x64_S1x524288x64_1_2 G = G3 := by
  funext i
  obtain ⟨u, b, q, rfl⟩ : ∃ (u : Fin 1) (b : Fin 524288) (q : Fin 64), i = ix3 u b q := ⟨i 0, i 1, i 2, eq_ix3 i⟩
  refine (broadcastInDim_apply _ bcast_S524288x64_S1x524288x64_1_2 G (ix3 u b q) (ix2 b q) (fun a => match a with
    | ⟨0, _⟩ => by show b.val = if (524288 : Nat) = 1 then 0 else b.val; rw [if_neg (by decide)]
    | ⟨1, _⟩ => by show q.val = if (64 : Nat) = 1 then 0 else q.val; rw [if_neg (by decide)])).trans ?_
  exact (hG u b q).symm

/-- The hidden-state result: the region's array with the leading axis put back. -/
theorem tail_hidden (c : Dev nD) :
    Pipeline.afterTail₀ cfgs (dats m) 0 (V0 m) [hostOps1] c main_v16 = Ghid3 m c := by
  have hA : Pipeline.withArrays spec0 c (V0 m c) (fun w => (dats m 0 c).arrAt w cfg0.N) (Proc.devRef .tc main_v15_1) = Ghid m c :=
    (Pipeline.withArrays_arr spec0 launch0.win.arr_inj c _ _ 10).trans (final10 m c)
  unfold Pipeline.afterTail₀
  show StableHlo.after hostOps1 _ (Proc.devRef .tc main_v16) = _
  after_results
  refine (congrArg (broadcastInDim S1x524288x64 ![1, 2] bcast_S524288x64_S1x524288x64_1_2) hA).trans ?_
  exact lead_axis (Ghid m c) (Ghid3 m c) (fun _ _ _ => rfl)

/-- The cell-state result likewise. -/
theorem tail_cell (c : Dev nD) :
    Pipeline.afterTail₀ cfgs (dats m) 0 (V0 m) [hostOps1] c main_v17 = Gcell3 m c := by
  have hA : Pipeline.withArrays spec0 c (V0 m c) (fun w => (dats m 0 c).arrAt w cfg0.N) (Proc.devRef .tc main_v15_2) = Gcell m c :=
    (Pipeline.withArrays_arr spec0 launch0.win.arr_inj c _ _ 11).trans (final11 m c)
  unfold Pipeline.afterTail₀
  show StableHlo.after hostOps1 _ (Proc.devRef .tc main_v17) = _
  after_results
  refine (congrArg (broadcastInDim S1x524288x64 ![1, 2] bcast_S524288x64_S1x524288x64_1_2) hA).trans ?_
  exact lead_axis (Gcell m c) (Gcell3 m c) (fun _ _ _ => rfl)

/-- The kernel program's run: each result at its function of the launch contents, the arguments unchanged. -/
theorem run : θ_run defs (onTc (τ := τ) (main (F := Ideal))) ⟨m, fun _ => 0, ρ⟩ fun r => ∀ c : Dev nD,
      r.2.mem ((c.tc : Thread nD τ).loc main_v15_0) = Glogp m c
      ∧ r.2.mem ((c.tc : Thread nD τ).loc main_v16) = Ghid3 m c
      ∧ r.2.mem ((c.tc : Thread nD τ).loc main_v17) = Gcell3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 9).trans (final9 m c),
      ((h c).2 main_v16 (Pipeline.mem_restRefs_of main_v16 (by decide) (by decide))).trans (tail_hidden m c),
      ((h c).2 main_v17 (Pipeline.mem_restRefs_of main_v17 (by decide) (by decide))).trans (tail_cell m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.ArrayValue

end
-- ==== Proof.RefArray.lean ====
/-
  The reference program's three results as whole arrays.

  The reference is a plain sequence of host operations. Each of its stages is read at an index (by the stage lemmas of
  the imported reading module, and here for the two it leaves out: the concatenation of the input with the hidden
  state, and the row maximum) and shown to be the row functions of Proof/RowSpec.lean:
  * a gate pre-activation at `(b, j)` is the two 64-term dot products of row `b` of the input and of the hidden
    state with row `j` of the gate weights (the program transposes them first), plus the two biases' sum at `j`;
  * the sigmoid is spelt `1 / (1 + e^(-z))` with the constant one, which is the logistic function;
  * the head multiplies the 128-wide concatenation `[x, h]` by the transposed 64 × 128 weight: the sum over 128 splits
    into the input's 64 terms and the hidden state's 64 terms;
  * the log-softmax takes the row maximum once more against its own starting value, which changes nothing, and
    starts its row sum from zero.
-/
import proofs.«166299_j26852135535256_1_alg».proof.Proof.RefRead
import proofs.«166299_j26852135535256_1_alg».proof.Proof.ArraySpec
import Idealize.ShloMosaic.Lib.Pipeline.Value
import Idealize.ShloMosaic.Lib.ValueIdx
import Idealize.ShloMosaic.PureOps.Ideal.Laws
import Idealize.ShloMosaic.PureOps.Reduce
import Idealize.ShloMosaic.PureOps.IdealRules

noncomputable section

namespace Cert.ReferenceIdeal.ArrayValue

open Cert.ReferenceIdeal Cert.ReferenceIdeal.Gen Cert.ReferenceIdeal.ReadP Idealize.ShloMosaic Idealize.ShloMosaic.ValueIdx
open Cert.RowSpec Cert.ArraySpec

variable (x0 : FVec Ideal S524288x64 .f32) (x1 x2 : FVec Ideal S1x524288x64 .f32) (x3 x4 : FVec Ideal S256x64 .f32)
  (x5 x6 : FVec Ideal S256 .f32) (x7 : FVec Ideal S64x128 .f32) (x8 : FVec Ideal S64 .f32)

/-! ## The index maps of the stages, at coordinates -/

theorem lidx10_eq (b : Fin 524288) (j : Fin 256) (k : Fin 64) : lidx_main_v10 (ix2 b j) k = ix2 b k :=
  funext fun a => Fin.ext (by match a with | ⟨0, _⟩ => rfl | ⟨1, _⟩ => rfl)
theorem ridx10_eq (b : Fin 524288) (j : Fin 256) (k : Fin 64) : idx_main_v9 (ridx_main_v10 (ix2 b j) k) = ix2 j k :=
  funext fun a => Fin.ext (by match a with | ⟨0, _⟩ => rfl | ⟨1, _⟩ => rfl)
theorem ridx12_eq (b : Fin 524288) (j : Fin 256) (k : Fin 64) : idx_main_v11 (ridx_main_v12 (ix2 b j) k) = ix2 j k :=
  funext fun a => Fin.ext (by match a with | ⟨0, _⟩ => rfl | ⟨1, _⟩ => rfl)

/-- Dropping the leading unit axis: position `(b, k)` of the reshaped state is position `(0, b, k)` of the state. -/
theorem unlead_eq (b : Fin 524288) (k : Fin 64) : idx_main_v0 (ix2 b k) = ix3 (0 : Fin 1) b k :=
  funext fun a => Fin.ext (by
    have hb := b.isLt
    have hk := k.isLt
    match a with
    | ⟨0, _⟩ => rfl
    | ⟨1, _⟩ => show (b.val * 64 + k.val) / 64 % 524288 = b.val; omega
    | ⟨2, _⟩ => show (b.val * 64 + k.val) % 64 = k.val; omega)
theorem unlead1_eq (b : Fin 524288) (k : Fin 64) : idx_main_v1 (ix2 b k) = ix3 (0 : Fin 1) b k :=
  funext fun a => Fin.ext (by
    have hb := b.isLt
    have hk := k.isLt
    match a with
    | ⟨0, _⟩ => rfl
    | ⟨1, _⟩ => show (b.val * 64 + k.val) / 64 % 524288 = b.val; omega
    | ⟨2, _⟩ => show (b.val * 64 + k.val) % 64 = k.val; omega)
theorem lidx12_eq (b : Fin 524288) (j : Fin 256) (k : Fin 64) : lidx_main_v12 (ix2 b j) k = ix2 b k :=
  funext fun a => Fin.ext (by match a with | ⟨0, _⟩ => rfl | ⟨1, _⟩ => rfl)
theorem bias_idx_eq (b : Fin 524288) (j : Fin 256) : idx_main_v15 (idx_main_v16 (ix2 b j)) = ix1 j :=
  funext fun a => Fin.ext (by match a with | ⟨0, _⟩ => rfl)
theorem idx18_eq (b : Fin 524288) (q : Fin 64) : idx_main_v18 (ix2 b q) = ix2 b (gateCol 0 (by decide) q) :=
  funext fun a => Fin.ext (by match a with | ⟨0, _⟩ => rfl | ⟨1, _⟩ => exact (Nat.zero_add _).symm)
theorem idx19_eq (b : Fin 524288) (q : Fin 64) : idx_main_v19 (ix2 b q) = ix2 b (gateCol 64 (by decide) q) :=
  funext fun a => Fin.ext (by match a with | ⟨0, _⟩ => rfl | ⟨1, _⟩ => rfl)
theorem idx20_eq (b : Fin 524288) (q : Fin 64) : idx_main_v20 (ix2 b q) = ix2 b (gateCol 128 (by decide) q) :=
  funext fun a => Fin.ext (by match a with | ⟨0, _⟩ => rfl | ⟨1, _⟩ => rfl)
theorem idx21_eq (b : Fin 524288) (q : Fin 64) : idx_main_v21 (ix2 b q) = ix2 b (gateCol 192 (by decide) q) :=
  funext fun a => Fin.ext (by match a with | ⟨0, _⟩ => rfl | ⟨1, _⟩ => rfl)

/-! ## The gates -/

/-- The summed bias and the row functions of this program's arguments. -/
abbrev bg : Fin 256 → EReal := fun j => x5 (ix1 j) + x6 (ix1 j)
abbrev Wi : Fin 256 → Fin 64 → EReal := fun j k => x3 (ix2 j k)
abbrev Wh : Fin 256 → Fin 64 → EReal := fun j k => x4 (ix2 j k)

/-- Gate pre-activation `j` of row `b`. -/
theorem gate_at (b : Fin 524288) (j : Fin 256) :
    val_main_v17 (F := Ideal) x0 x1 x3 x4 x5 x6 (ix2 b j)
      = gatePre (xRow x0 b) (sRow x1 b) (Wi x3) (Wh x4) (bg x5 x6) j := by
  rw [val_main_v17_apply, val_main_v13_apply, val_main_v10_apply, val_main_v12_apply, val_main_v16_apply, val_main_v15_apply,
    val_main_v14_apply]
  simp only [val_main_v9_apply, val_main_v11_apply, val_main_v0_apply, lidx10_eq, ridx10_eq, lidx12_eq, ridx12_eq, unlead_eq, bias_idx_eq]
  rfl

/-! ## The sigmoid as the program spells it -/

/-- The word `0x3F800000` is the number one. -/
theorem one_word : Ideal.ofBits .f32 0x3F800000#32 = 1 :=
  IdealRules.sign_bit.ideal_onePat .f32

/-- `1 / (1 + e^(-z))` with the constant one is the logistic function. -/
theorem logistic_spelt (z : EReal) :
    Ideal.div (Ideal.ofBits .f32 0x3F800000#32) (Ideal.ofBits .f32 0x3F800000#32 + Ideal.exp (-z)) = Ideal.logistic z := by
  rw [one_word]; rfl

/-- The input gate of row `b` at `q`. -/
theorem gateI_at (b : Fin 524288) (q : Fin 64) :
    val_main_v27 (F := Ideal) x0 x1 x3 x4 x5 x6 (ix2 b q)
      = Ideal.logistic (gatePre (xRow x0 b) (sRow x1 b) (Wi x3) (Wh x4) (bg x5 x6) (gateCol 0 (by decide) q)) := by
  rw [val_main_v27_apply, val_main_v26_apply, val_main_cst_0_apply, val_main_v25_apply, val_main_v24_apply, val_main_cst_apply,
    val_main_v23_apply, val_main_v22_apply, val_main_v18_apply, idx18_eq, gate_at]
  exact logistic_spelt _

/-- The forget gate. -/
theorem gateF_at (b : Fin 524288) (q : Fin 64) :
    val_main_v33 (F := Ideal) x0 x1 x3 x4 x5 x6 (ix2 b q)
      = Ideal.logistic (gatePre (xRow x0 b) (sRow x1 b) (Wi x3) (Wh x4) (bg x5 x6) (gateCol 64 (by decide) q)) := by
  rw [val_main_v33_apply, val_main_v32_apply, val_main_cst_2_apply, val_main_v31_apply, val_main_v30_apply, val_main_cst_1_apply,
    val_main_v29_apply, val_main_v28_apply, val_main_v19_apply, idx19_eq, gate_at]
  exact logistic_spelt _

/-- The output gate. -/
theorem gateO_at (b : Fin 524288) (q : Fin 64) :
    val_main_v40 (F := Ideal) x0 x1 x3 x4 x5 x6 (ix2 b q)
      = Ideal.logistic (gatePre (xRow x0 b) (sRow x1 b) (Wi x3) (Wh x4) (bg x5 x6) (gateCol 192 (by decide) q)) := by
  rw [val_main_v40_apply, val_main_v39_apply, val_main_cst_4_apply, val_main_v38_apply, val_main_v37_apply, val_main_cst_3_apply,
    val_main_v36_apply, val_main_v35_apply, val_main_v21_apply, idx21_eq, gate_at]
  exact logistic_spelt _

/-! ## The update -/

/-- The next cell state of row `b` at `q`. -/
theorem cell_at (b : Fin 524288) (q : Fin 64) :
    val_main_v43 (F := Ideal) x0 x1 x2 x3 x4 x5 x6 (ix2 b q) = cellAt x0 x1 x2 x3 x4 x5 x6 b q := by
  rw [val_main_v43_apply, val_main_v41_apply, val_main_v42_apply, gateF_at, gateI_at, val_main_v1_apply, unlead1_eq,
    val_main_v34_apply, val_main_v20_apply, idx20_eq, gate_at]
  rfl

/-- The next hidden state of row `b` at `q`. -/
theorem hidden_at (b : Fin 524288) (q : Fin 64) :
    val_main_v45 (F := Ideal) x0 x1 x2 x3 x4 x5 x6 (ix2 b q) = hiddenAt x0 x1 x2 x3 x4 x5 x6 b q := by
  rw [val_main_v45_apply, gateO_at, val_main_v44_apply, cell_at]
  rfl

theorem lead46_eq (u : Fin 1) (b : Fin 524288) (q : Fin 64) : idx_main_v46 (ix3 u b q) = ix2 b q :=
  funext fun a => Fin.ext (by match a with | ⟨0, _⟩ => rfl | ⟨1, _⟩ => rfl)
theorem lead47_eq (u : Fin 1) (b : Fin 524288) (q : Fin 64) : idx_main_v47 (ix3 u b q) = ix2 b q :=
  funext fun a => Fin.ext (by match a with | ⟨0, _⟩ => rfl | ⟨1, _⟩ => rfl)

/-- The hidden-state result, with its leading unit axis. -/
theorem hidden_result : val_main_v46 (F := Ideal) x0 x1 x2 x3 x4 x5 x6 = hiddenArr3 x0 x1 x2 x3 x4 x5 x6 := by
  funext i
  obtain ⟨u, b, q, rfl⟩ : ∃ (u : Fin 1) (b : Fin 524288) (q : Fin 64), i = ix3 u b q := ⟨i 0, i 1, i 2, eq_ix3 i⟩
  rw [val_main_v46_apply, lead46_eq, hidden_at]
  rfl

/-- The cell-state result, with its leading unit axis. -/
theorem cell_result : val_main_v47 (F := Ideal) x0 x1 x2 x3 x4 x5 x6 = cellArr3 x0 x1 x2 x3 x4 x5 x6 := by
  funext i
  obtain ⟨u, b, q, rfl⟩ : ∃ (u : Fin 1) (b : Fin 524288) (q : Fin 64), i = ix3 u b q := ⟨i 0, i 1, i 2, eq_ix3 i⟩
  rw [val_main_v47_apply, lead47_eq, cell_at]
  rfl

/-! ## The head: the concatenation, the logits -/

/-- The transposed head weight at the `k`-th contracted position, for output `o`: entry `(o, k)` of the weight. -/
theorem w_at (b : Fin 524288) (o : Fin 64) (kk : Fin 128) :
    val_main_v3 (F := Ideal) x7 (ridx_main_v4 (ix2 b o) kk) = x7 (ix2 o kk) := by
  rw [val_main_v3_apply]
  exact congrArg x7 (funext fun a => Fin.ext (by match a with | ⟨0, _⟩ => rfl | ⟨1, _⟩ => rfl))

/-- The first 64 columns of `[x, h]` are the input's. -/
theorem cat_left (b : Fin 524288) (o : Fin 64) (k : Fin 64) :
    val_main_v2 (F := Ideal) x0 x1 (lidx_main_v4 (ix2 b o) ⟨k.val, by have := k.isLt; omega⟩) = x0 (ix2 b k) := by
  unfold val_main_v2
  exact concatenate_pair_apply_left (t := S524288x128) (s₁ := S524288x64) (s₂ := S524288x64) (1 : Fin 2) x0 (val_main_v0 (F := Ideal) x1)
    concatenates_S524288x64_S524288x64_S524288x128_d1 (lidx_main_v4 (ix2 b o) ⟨k.val, by have := k.isLt; omega⟩) rfl (ix2 b k)
    (fun a => by match a with | ⟨0, _⟩ => rfl | ⟨1, _⟩ => rfl)

/-- The last 64 columns of `[x, h]` are the hidden state's. -/
theorem cat_right (b : Fin 524288) (o : Fin 64) (k : Fin 64) :
    val_main_v2 (F := Ideal) x0 x1 (lidx_main_v4 (ix2 b o) ⟨64 + k.val, by have := k.isLt; omega⟩) = x1 (ix3 (0 : Fin 1) b k) := by
  unfold val_main_v2
  refine (concatenate_pair_apply_right (t := S524288x128) (s₁ := S524288x64) (s₂ := S524288x64) (1 : Fin 2) x0 (val_main_v0 (F := Ideal) x1)
    concatenates_S524288x64_S524288x64_S524288x128_d1 (lidx_main_v4 (ix2 b o) ⟨64 + k.val, by have := k.isLt; omega⟩) rfl rfl (ix2 b k)
    (fun a ha => by match a with | ⟨0, _⟩ => rfl | ⟨1, _⟩ => exact absurd rfl ha)
    (by show k.val + 64 = 64 + k.val; omega)).trans ?_
  rw [val_main_v0_apply, unlead_eq]

theorem bo_idx_eq (b : Fin 524288) (o : Fin 64) : idx_main_v5 (idx_main_v6 (ix2 b o)) = ix1 o :=
  funext fun a => Fin.ext (by match a with | ⟨0, _⟩ => rfl)

/-- The logits of row `b`. -/
abbrev zRow (b : Fin 524288) : Fin 64 → EReal :=
  headLogit (xRow x0 b) (sRow x1 b) (WoX x7) (WoH x7) (fun o => x8 (ix1 o))

theorem logits_at (b : Fin 524288) (o : Fin 64) :
    val_main_v7 (F := Ideal) x0 x1 x7 x8 (ix2 b o) = zRow x0 x1 x7 x8 b o := by
  rw [val_main_v7_apply, val_main_v4_apply, val_main_v6_apply, val_main_v5_apply, bo_idx_eq, sum_split128]
  simp only [cat_left, cat_right, w_at]
  rfl

/-! ## The log-softmax -/

/-- The row maximum, taken once more against its own starting value. -/
theorem rowmax_at (b : Fin 524288) :
    val_main_call0_v2 (F := Ideal) x0 x1 x7 x8 (ix1 b) = rowMax ninf (zRow x0 x1 x7 x8 b) := by
  have h0 : val_main_call0_v0 (F := Ideal) x0 x1 x7 x8 (ix1 b) = rowMax ninf (zRow x0 x1 x7 x8 b) := by
    unfold val_main_call0_v0
    refine (Host.reduce_eq_fold_single (α := EReal) (s := S524288x64) (t := S524288) (u := S_) (FloatOps.maximumf (F := Ideal) (φ := .f32))
      (val_main_v7 (F := Ideal) x0 x1 x7 x8 : S524288x64.Idx → EReal) (val_main_call0_cst (F := Ideal) : S_.Idx → EReal)
      reducesTo_S524288x64_S524288_d1 (by decide) h_S_ (ix1 b)).trans ?_
    unfold rowMax
    show (Finset.univ : Finset (Fin 64)).fold max ninf (val_main_v7 (F := Ideal) x0 x1 x7 x8 ∘ _) = _
    refine Finset.fold_congr fun k _ => ?_
    exact (congrArg (val_main_v7 (F := Ideal) x0 x1 x7 x8)
      (funext fun a => Fin.ext (by match a with | ⟨0, _⟩ => rfl | ⟨1, _⟩ => rfl))).trans (logits_at x0 x1 x7 x8 b k)
  rw [val_main_call0_v2_apply, val_main_call0_v1_apply, val_main_call0_cst_0_apply, h0]
  exact max_rowMax ninf _

theorem col_idx_eq (b : Fin 524288) (o : Fin 64) : idx_main_call0_v3 (idx_main_call0_v4 (ix2 b o)) = ix1 b :=
  funext fun a => Fin.ext (by match a with | ⟨0, _⟩ => rfl)
theorem col_idx2_eq (b : Fin 524288) (o : Fin 64) : idx_main_call0_v8 (idx_main_call0_v10 (ix2 b o)) = ix1 b :=
  funext fun a => Fin.ext (by match a with | ⟨0, _⟩ => rfl)

/-- A logit minus its row's maximum. -/
theorem shifted_at (b : Fin 524288) (o : Fin 64) :
    val_main_call0_v5 (F := Ideal) x0 x1 x7 x8 (ix2 b o) = zRow x0 x1 x7 x8 b o - rowMax ninf (zRow x0 x1 x7 x8 b) := by
  rw [val_main_call0_v5_apply, val_main_call0_v4_apply, val_main_call0_v3_apply, col_idx_eq, rowmax_at, logits_at]
  rfl

/-- The row sum of the exponentials, started from zero. -/
theorem rowsum_at (b : Fin 524288) :
    val_main_call0_v7 (F := Ideal) x0 x1 x7 x8 (ix1 b)
      = ∑ o : Fin 64, Ideal.exp (zRow x0 x1 x7 x8 b o - rowMax ninf (zRow x0 x1 x7 x8 b)) := by
  rw [val_main_call0_v7_apply, val_main_call0_cst_1_apply]
  show Ideal.ofBits .f32 0x00000000#32 + _ = _
  rw [Ideal.ofBits_zero_f32, zero_add]
  refine Finset.sum_congr rfl fun k _ => ?_
  rw [val_main_call0_v6_apply,
    show idx_main_call0_v7 (ix1 b) k = ix2 b k from funext fun a => Fin.ext (by match a with | ⟨0, _⟩ => rfl | ⟨1, _⟩ => rfl),
    shifted_at]
  rfl

/-- The log-probability of row `b` at `o`. -/
theorem logp_at (b : Fin 524288) (o : Fin 64) :
    val_main_v8 (F := Ideal) x0 x1 x7 x8 (ix2 b o) = logpAt x0 x1 x7 x8 b o := by
  rw [val_main_v8_apply, shifted_at, val_main_call0_v10_apply, val_main_call0_v9_apply, val_main_call0_v8_apply, col_idx2_eq, rowsum_at]
  rfl

/-- The log-probabilities result. -/
theorem logp_result : val_main_v8 (F := Ideal) x0 x1 x7 x8 = logpArr x0 x1 x7 x8 := by
  funext i
  obtain ⟨b, o, rfl⟩ : ∃ (b : Fin 524288) (o : Fin 64), i = ix2 b o := ⟨i 0, i 1, eq_ix2 i⟩
  exact logp_at x0 x1 x7 x8 b o

end Cert.ReferenceIdeal.ArrayValue

end
-- ==== Proof.lean ====
/-
  One LSTM step fused with its output head, on a batch of 524288 rows of width 64, against the same step written
  with plain array operations.

  Both programs compute, for every batch row, from the row of the input `x`, of the hidden state `h` and of the cell
  state `c`:
  * the 256 gate pre-activations `x · W_ihᵀ + h · W_hhᵀ + (b_ih + b_hh)`, cut into the input, forget, candidate and
    output gates of 64 entries each;
  * the next cell state `σ(f) · c + σ(i) · tanh(g)` and the next hidden state `σ(o) · tanh(next cell)`;
  * the log-softmax along the row of the head's logits `[x, h] · W_oᵀ + b_o`.
  Over the extended reals they are the same functions of the nine arguments (Proof/ArraySpec.lean), and no step needs
  the inputs to be finite:
  * a change of float format is the identity, so the kernel's narrowing of its matmul operands changes nothing;
  * the kernel's one sigmoid operation is `1 / (1 + e^(-z))`, which the reference spells out with the constant one;
  * the kernel multiplies the input and the hidden state by the two halves of `W_o` and adds the products, where the
    reference multiplies the concatenation `[x, h]` by the whole of `W_o`: a sum of 128 terms is the sum of its first
    64 and its last 64 (addition of extended reals is commutative and associative);
  * the reference's log-softmax takes the maximum of the row maximum with the value that maximum was folded from,
    which is the row maximum again;
  * the kernel's 256 blocks of 2048 rows tile the batch, and each row's results depend on that row alone.
  The kernel side is Proof/KernelRow.lean (the body at a row) and Proof/KernelArray.lean (blocks to arrays, the lines
  after the region); the reference side is Proof/RefArray.lean over the reference's run read stage by stage.
  The kernel's idealization rewrote no operation, so that claim is trivial; the three frames are the programs' runs
  with the results dropped.
-/
import proofs.«166299_j26852135535256_1_alg».proof.Defs
import proofs.«166299_j26852135535256_1_alg».proof.Proof.Gen.Kernel
import proofs.«166299_j26852135535256_1_alg».proof.Proof.Gen.Kernel.Frame
import proofs.«166299_j26852135535256_1_alg».proof.Proof.Gen.KernelIdeal
import proofs.«166299_j26852135535256_1_alg».proof.Proof.Gen.KernelIdeal.Frame
import proofs.«166299_j26852135535256_1_alg».proof.Proof.Gen.ReferenceIdeal
import proofs.«166299_j26852135535256_1_alg».proof.Proof.Gen.Pre_finite_inputs
import proofs.«166299_j26852135535256_1_alg».proof.Proof.KernelArray
import proofs.«166299_j26852135535256_1_alg».proof.Proof.RefArray
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments unchanged: its run, the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The idealization rewrote nothing. -/
theorem preserves : Cert.preserves_Kernel_KernelIdeal := trivial

/-- From memories that agree on the nine arguments both programs end with the same three results: each is the
    whole-array function of the arguments, on the kernel's side by its blocks and on the reference's stage by stage. -/
theorem algebraic : Cert.algebraic_KernelIdeal_ReferenceIdeal := by
  intro m ρ m' ρ' _ hagree
  refine ⟨fun c => Cert.KernelIdeal.ArrayValue.Glogp m c, fun c => Cert.KernelIdeal.ArrayValue.Ghid3 m c,
    fun c => Cert.KernelIdeal.ArrayValue.Gcell3 m c, Cert.KernelIdeal.ArrayValue.run m ρ, ?_⟩
  refine (θ_run Cert.ReferenceIdeal.defs _ _).mono (fun _ h c => ?_) (Cert.ReferenceIdeal.ValueP.run (F := Ideal) m' ρ')
  obtain ⟨h8, h46, h47, hargs⟩ := h c
  obtain ⟨a0, a1, a2, a3, a4, a5, a6, a7, a8⟩ := hagree c
  refine ⟨?_, ?_, ?_, hargs⟩
  · rw [h8, Cert.ReferenceIdeal.ReadP.val_main_v8_eq, Cert.ReferenceIdeal.ArrayValue.logp_result, a0, a1, a7, a8]
  · rw [h46, Cert.ReferenceIdeal.ReadP.val_main_v46_eq, Cert.ReferenceIdeal.ArrayValue.hidden_result, a0, a1, a2, a3, a4, a5, a6]
  · rw [h47, Cert.ReferenceIdeal.ReadP.val_main_v47_eq, Cert.ReferenceIdeal.ArrayValue.cell_result, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
